-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)) (v2 : (c : Dev Cert.KernelIdeal.nD) → Buf (Elt Ideal) ((c.tc : Thread Cert.KernelIdeal.nD Cert.KernelIdeal.τ).loc Cert.KernelIdeal.main_v15_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_v15_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_v26) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S16384x1024 : Shape := ⟨2, ![16384, 1024]⟩
abbrev S16384 : Shape := ⟨1, ![16384]⟩
abbrev S1024x2048 : Shape := ⟨2, ![1024, 2048]⟩
abbrev S2048 : Shape := ⟨1, ![2048]⟩
abbrev S2048x1024 : Shape := ⟨2, ![2048, 1024]⟩
abbrev S1024 : Shape := ⟨1, ![1024]⟩
abbrev S1024x512 : Shape := ⟨2, ![1024, 512]⟩
abbrev S512 : Shape := ⟨1, ![512]⟩
abbrev S512x512 : Shape := ⟨2, ![512, 512]⟩
abbrev S512x256 : Shape := ⟨2, ![512, 256]⟩
abbrev S256 : Shape := ⟨1, ![256]⟩
abbrev S8x256 : Shape := ⟨2, ![8, 256]⟩
abbrev S8 : Shape := ⟨1, ![8]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S16384x1024 : S_.BroadcastsInDim S16384x1024 (![] : Fin 0 → Fin S16384x1024.rank)
  reducesTo_S16384x1024_S_d0_1 : S16384x1024.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S2048 : S_.BroadcastsInDim S2048 (![] : Fin 0 → Fin S2048.rank)
  reducesTo_S2048_S_d0 : S2048.ReducesTo [0] S_
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S8x256 : S_.BroadcastsInDim S8x256 (![] : Fin 0 → Fin S8x256.rank)
  reducesTo_S8x256_S_d0_1 : S8x256.ReducesTo [0, 1] S_
  bcast_S_S8 : S_.BroadcastsInDim S8 (![] : Fin 0 → Fin S8.rank)
  reducesTo_S8_S_d0 : S8.ReducesTo [0] S_
  bcast_S_S16384 : S_.BroadcastsInDim S16384 (![] : Fin 0 → Fin S16384.rank)
  reducesTo_S16384_S_d0 : S16384.ReducesTo [0] S_

variable [Facts]

def fn_part4 {F : FTy → Type} [FloatOps F] (main_arg2 : IVec S16384 32) (main_v63 : IVec S_ 1) (main_v67 : IVec S_ 1) : IVec S_ 1 :=
  let main_v68 : IVec S_ 1 := andi main_v63 main_v67
  let main_c_26 : IVec S_ 32 := constantI S_ 32 0#32
  let main_v69 : IVec S16384 32 := broadcastInDim S16384 ![] bcast_S_S16384 main_c_26
  let main_v70 : IVec S16384 1 := cmpi .sge main_arg2 main_v69
  let main_c_27 : IVec S_ 1 := constantI S_ 1 1#1
  let main_v71 : IVec S_ 1 := (fun x v => Host.reduce IntOp.andi x v reducesTo_S16384_S_d0 h_S_) main_v70 main_c_27
  let main_v72 : IVec S_ 1 := andi main_v68 main_v71
  let main_c_28 : IVec S_ 32 := constantI S_ 32 8#32
  let main_v73 : IVec S16384 32 := broadcastInDim S16384 ![] bcast_S_S16384 main_c_28
  let main_v74 : IVec S16384 1 := cmpi .slt main_arg2 main_v73
  let main_c_29 : IVec S_ 1 := constantI S_ 1 1#1
  let main_v75 : IVec S_ 1 := (fun x v => Host.reduce IntOp.andi x v reducesTo_S16384_S_d0 h_S_) main_v74 main_c_29
  let main_v76 : IVec S_ 1 := andi main_v72 main_v75
  main_v76

def fn_part3 {F : FTy → Type} [FloatOps F] (main_arg2 : IVec S16384 32) (main_arg12 : FVec F S256 .f32) (main_arg13 : FVec F S8x256 .f32) (main_arg14 : FVec F S8 .f32) (main_v48 : IVec S_ 1) (main_v49 : FVec F S512x256 .f32) (main_v50 : FVec F S512x256 .f32) : IVec S_ 1 :=
  let main_v51 : IVec S512x256 1 := cmpf .olt main_v49 main_v50
  let main_c_19 : IVec S_ 1 := constantI S_ 1 1#1
  let main_v52 : IVec S_ 1 := (fun x v => Host.reduce IntOp.andi x v reducesTo_S512x256_S_d0_1 h_S_) main_v51 main_c_19
  let main_v53 : IVec S_ 1 := andi main_v48 main_v52
  let main_v54 : FVec F S256 .f32 := Host.absf main_arg12
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S8x256 .f32 := Host.absf main_arg13
  let main_cst_22 : FVec F S_ .f32 := constant S_ .f32 0x7F800000#32
  let main_v60 : FVec F S8x256 .f32 := broadcastInDim S8x256 ![] bcast_S_S8x256 main_cst_22
  let main_v61 : IVec S8x256 1 := cmpf .olt main_v59 main_v60
  let main_c_23 : IVec S_ 1 := constantI S_ 1 1#1
  let main_v62 : IVec S_ 1 := (fun x v => Host.reduce IntOp.andi x v reducesTo_S8x256_S_d0_1 h_S_) main_v61 main_c_23
  let main_v63 : IVec S_ 1 := andi main_v58 main_v62
  let main_v64 : FVec F S8 .f32 := Host.absf main_arg14
  let main_cst_24 : FVec F S_ .f32 := constant S_ .f32 0x7F800000#32
  let main_v65 : FVec F S8 .f32 := broadcastInDim S8 ![] bcast_S_S8 main_cst_24
  let main_v66 : IVec S8 1 := cmpf .olt main_v64 main_v65
  let main_c_25 : IVec S_ 1 := constantI S_ 1 1#1
  let main_v67 : IVec S_ 1 := (fun x v => Host.reduce IntOp.andi x v reducesTo_S8_S_d0 h_S_) main_v66 main_c_25
  fn_part4 (F := F) main_arg2 main_v63 main_v67

def fn_part2 {F : FTy → Type} [FloatOps F] (main_arg2 : IVec S16384 32) (main_arg8 : FVec F S512 .f32) (main_arg9 : FVec F S512x512 .f32) (main_arg10 : FVec F S512 .f32) (main_arg11 : FVec F S512x256 .f32) (main_arg12 : FVec F S256 .f32) (main_arg13 : FVec F S8x256 .f32) (main_arg14 : FVec F S8 .f32) (main_v33 : IVec S_ 1) : IVec S_ 1 :=
  let main_v34 : FVec F S512 .f32 := Host.absf main_arg8
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x512 .f32 := Host.absf main_arg9
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S512 .f32 := Host.absf main_arg10
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512x256 .f32 := Host.absf main_arg11
  let main_cst_18 : FVec F S_ .f32 := constant S_ .f32 0x7F800000#32
  let main_v50 : FVec F S512x256 .f32 := broadcastInDim S512x256 ![] bcast_S_S512x256 main_cst_18
  fn_part3 (F := F) main_arg2 main_arg12 main_arg13 main_arg14 main_v48 main_v49 main_v50

def fn_part1 {F : FTy → Type} [FloatOps F] (main_arg2 : IVec S16384 32) (main_arg5 : FVec F S2048x1024 .f32) (main_arg6 : FVec F S1024 .f32) (main_arg7 : FVec F S1024x512 .f32) (main_arg8 : FVec F S512 .f32) (main_arg9 : FVec F S512x512 .f32) (main_arg10 : FVec F S512 .f32) (main_arg11 : FVec F S512x256 .f32) (main_arg12 : FVec F S256 .f32) (main_arg13 : FVec F S8x256 .f32) (main_arg14 : FVec F S8 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048x1024 .f32 := Host.absf main_arg5
  let main_cst_6 : FVec F S_ .f32 := constant S_ .f32 0x7F800000#32
  let main_v20 : FVec F S2048x1024 .f32 := broadcastInDim S2048x1024 ![] bcast_S_S2048x1024 main_cst_6
  let main_v21 : IVec S2048x1024 1 := cmpf .olt main_v19 main_v20
  let main_c_7 : IVec S_ 1 := constantI S_ 1 1#1
  let main_v22 : IVec S_ 1 := (fun x v => Host.reduce IntOp.andi x v reducesTo_S2048x1024_S_d0_1 h_S_) main_v21 main_c_7
  let main_v23 : IVec S_ 1 := andi main_v18 main_v22
  let main_v24 : FVec F S1024 .f32 := Host.absf main_arg6
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x512 .f32 := Host.absf main_arg7
  let main_cst_10 : FVec F S_ .f32 := constant S_ .f32 0x7F800000#32
  let main_v30 : FVec F S1024x512 .f32 := broadcastInDim S1024x512 ![] bcast_S_S1024x512 main_cst_10
  let main_v31 : IVec S1024x512 1 := cmpf .olt main_v29 main_v30
  let main_c_11 : IVec S_ 1 := constantI S_ 1 1#1
  let main_v32 : IVec S_ 1 := (fun x v => Host.reduce IntOp.andi x v reducesTo_S1024x512_S_d0_1 h_S_) main_v31 main_c_11
  let main_v33 : IVec S_ 1 := andi main_v28 main_v32
  fn_part2 (F := F) main_arg2 main_arg8 main_arg9 main_arg10 main_arg11 main_arg12 main_arg13 main_arg14 main_v33

def fn {F : FTy → Type} [FloatOps F] (main_arg0 : FVec F S16384x256 .f32) (main_arg1 : FVec F S16384x1024 .f32) (main_arg2 : IVec S16384 32) (main_arg3 : FVec F S1024x2048 .f32) (main_arg4 : FVec F S2048 .f32) (main_arg5 : FVec F S2048x1024 .f32) (main_arg6 : FVec F S1024 .f32) (main_arg7 : FVec F S1024x512 .f32) (main_arg8 : FVec F S512 .f32) (main_arg9 : FVec F S512x512 .f32) (main_arg10 : FVec F S512 .f32) (main_arg11 : FVec F S512x256 .f32) (main_arg12 : FVec F S256 .f32) (main_arg13 : FVec F S8x256 .f32) (main_arg14 : FVec F S8 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S1024x2048 .f32 := Host.absf main_arg3
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_c_3 : IVec S_ 1 := constantI S_ 1 1#1
  let main_v12 : IVec S_ 1 := (fun x v => Host.reduce IntOp.andi x v reducesTo_S1024x2048_S_d0_1 h_S_) main_v11 main_c_3
  let main_v13 : IVec S_ 1 := andi main_v8 main_v12
  let main_v14 : FVec F S2048 .f32 := Host.absf main_arg4
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg2 main_arg5 main_arg6 main_arg7 main_arg8 main_arg9 main_arg10 main_arg11 main_arg12 main_arg13 main_arg14 main_v13 main_v16
-- ==== Kernel.lean ====
abbrev S16384x256 : Shape := ⟨2, ![16384, 256]⟩
abbrev S16384x1024 : Shape := ⟨2, ![16384, 1024]⟩
abbrev S16384 : Shape := ⟨1, ![16384]⟩
abbrev S1024x2048 : Shape := ⟨2, ![1024, 2048]⟩
abbrev S2048 : Shape := ⟨1, ![2048]⟩
abbrev S2048x1024 : Shape := ⟨2, ![2048, 1024]⟩
abbrev S1024 : Shape := ⟨1, ![1024]⟩
abbrev S1024x512 : Shape := ⟨2, ![1024, 512]⟩
abbrev S512 : Shape := ⟨1, ![512]⟩
abbrev S512x512 : Shape := ⟨2, ![512, 512]⟩
abbrev S512x256 : Shape := ⟨2, ![512, 256]⟩
abbrev S256 : Shape := ⟨1, ![256]⟩
abbrev S8x256 : Shape := ⟨2, ![8, 256]⟩
abbrev S8 : Shape := ⟨1, ![8]⟩
abbrev S_ : Shape := ⟨0, ![]⟩
abbrev S16384x1 : Shape := ⟨2, ![16384, 1]⟩
abbrev S8x1 : Shape := ⟨2, ![8, 1]⟩
abbrev S1x2048 : Shape := ⟨2, ![1, 2048]⟩
abbrev S1x1024 : Shape := ⟨2, ![1, 1024]⟩
abbrev S1x512 : Shape := ⟨2, ![1, 512]⟩
abbrev S1x256 : Shape := ⟨2, ![1, 256]⟩
abbrev S16384x512 : Shape := ⟨2, ![16384, 512]⟩
abbrev S512x1024 : Shape := ⟨2, ![512, 1024]⟩
abbrev S512x1 : Shape := ⟨2, ![512, 1]⟩
abbrev S512x2048 : Shape := ⟨2, ![512, 2048]⟩
abbrev S512x8 : Shape := ⟨2, ![512, 8]⟩

abbrev nBuf : Space → Nat
  | .hbm => 40
  | .vmem => 24
  | .smem => 0
  | _ => 0

abbrev bufTy : (tb : Table) → Fin (tcTables nBuf tb) → BufTy
  | .hbm, ⟨0, _⟩ => ⟨S16384x256, .f32⟩
  | .hbm, ⟨1, _⟩ => ⟨S16384x1024, .f32⟩
  | .hbm, ⟨2, _⟩ => ⟨S16384, .i32⟩
  | .hbm, ⟨3, _⟩ => ⟨S1024x2048, .f32⟩
  | .hbm, ⟨4, _⟩ => ⟨S2048, .f32⟩
  | .hbm, ⟨5, _⟩ => ⟨S2048x1024, .f32⟩
  | .hbm, ⟨6, _⟩ => ⟨S1024, .f32⟩
  | .hbm, ⟨7, _⟩ => ⟨S1024x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S512x256, .f32⟩
  | .hbm, ⟨12, _⟩ => ⟨S256, .f32⟩
  | .hbm, ⟨13, _⟩ => ⟨S8x256, .f32⟩
  | .hbm, ⟨14, _⟩ => ⟨S8, .f32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S16384, .i32⟩
  | .hbm, ⟨19, _⟩ => ⟨S16384, .i32⟩
  | .hbm, ⟨20, _⟩ => ⟨S_, .i32⟩
  | .hbm, ⟨21, _⟩ => ⟨S16384, .i32⟩
  | .hbm, ⟨22, _⟩ => ⟨S16384, .i32⟩
  | .hbm, ⟨23, _⟩ => ⟨S16384x1, .i32⟩
  | .hbm, ⟨24, _⟩ => ⟨S1024x2048, .bf16⟩
  | .hbm, ⟨25, _⟩ => ⟨S2048x1024, .bf16⟩
  | .hbm, ⟨26, _⟩ => ⟨S1024x512, .bf16⟩
  | .hbm, ⟨27, _⟩ => ⟨S512x512, .bf16⟩
  | .hbm, ⟨28, _⟩ => ⟨S512x256, .bf16⟩
  | .hbm, ⟨29, _⟩ => ⟨S8x256, .bf16⟩
  | .hbm, ⟨30, _⟩ => ⟨S8x1, .f32⟩
  | .hbm, ⟨31, _⟩ => ⟨S8x1, .bf16⟩
  | .hbm, ⟨32, _⟩ => ⟨S1x2048, .f32⟩
  | .hbm, ⟨33, _⟩ => ⟨S1x1024, .f32⟩
  | .hbm, ⟨34, _⟩ => ⟨S1x512, .f32⟩
  | .hbm, ⟨35, _⟩ => ⟨S1x512, .f32⟩
  | .hbm, ⟨36, _⟩ => ⟨S1x256, .f32⟩
  | .hbm, ⟨37, _⟩ => ⟨S16384x1, .f32⟩
  | .hbm, ⟨38, _⟩ => ⟨S16384x512, .f32⟩
  | .hbm, ⟨39, _⟩ => ⟨S16384x256, .f32⟩
  | .local _ .vmem, ⟨0, _⟩ => ⟨S512x256, .f32⟩
  | .local _ .vmem, ⟨1, _⟩ => ⟨S512x256, .f32⟩
  | .local _ .vmem, ⟨2, _⟩ => ⟨S512x1024, .f32⟩
  | .local _ .vmem, ⟨3, _⟩ => ⟨S512x1024, .f32⟩
  | .local _ .vmem, ⟨4, _⟩ => ⟨S512x1, .i32⟩
  | .local _ .vmem, ⟨5, _⟩ => ⟨S512x1, .i32⟩
  | .local _ .vmem, ⟨6, _⟩ => ⟨S1024x2048, .bf16⟩
  | .local _ .vmem, ⟨7, _⟩ => ⟨S1x2048, .f32⟩
  | .local _ .vmem, ⟨8, _⟩ => ⟨S2048x1024, .bf16⟩
  | .local _ .vmem, ⟨9, _⟩ => ⟨S1x1024, .f32⟩
  | .local _ .vmem, ⟨10, _⟩ => ⟨S1024x512, .bf16⟩
  | .local _ .vmem, ⟨11, _⟩ => ⟨S1x512, .f32⟩
  | .local _ .vmem, ⟨12, _⟩ => ⟨S512x512, .bf16⟩
  | .local _ .vmem, ⟨13, _⟩ => ⟨S1x512, .f32⟩
  | .local _ .vmem, ⟨14, _⟩ => ⟨S512x256, .bf16⟩
  | .local _ .vmem, ⟨15, _⟩ => ⟨S1x256, .f32⟩
  | .local _ .vmem, ⟨16, _⟩ => ⟨S8x256, .bf16⟩
  | .local _ .vmem, ⟨17, _⟩ => ⟨S8x1, .bf16⟩
  | .local _ .vmem, ⟨18, _⟩ => ⟨S512x1, .f32⟩
  | .local _ .vmem, ⟨19, _⟩ => ⟨S512x1, .f32⟩
  | .local _ .vmem, ⟨20, _⟩ => ⟨S512x512, .f32⟩
  | .local _ .vmem, ⟨21, _⟩ => ⟨S512x512, .f32⟩
  | .local _ .vmem, ⟨22, _⟩ => ⟨S512x256, .f32⟩
  | .local _ .vmem, ⟨23, _⟩ => ⟨S512x256, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_c_0 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15_0 : Ref sig .tc := ⟨.hbm, 37, rfl⟩
abbrev main_v15_1 : Ref sig .tc := ⟨.hbm, 38, rfl⟩
abbrev main_v15_2 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19
abbrev cc0_sem16_0 : DmaSem sig := 20
abbrev cc0_sem16_1 : DmaSem sig := 21
abbrev cc0_sem17_0 : DmaSem sig := 22
abbrev cc0_sem17_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x1 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

class Facts₀ : Prop where
  bcast_S_S16384 : S_.BroadcastsInDim S16384 (![] : Fin 0 → Fin S16384.rank)
  shapeCasts_S16384_S16384x1 : S16384.ShapeCasts S16384x1
  bitsLt_bf16_f32 : FTy.bits .bf16 < FTy.bits .f32
  shapeCasts_S8_S8x1 : S8.ShapeCasts S8x1
  shapeCasts_S2048_S1x2048 : S2048.ShapeCasts S1x2048
  shapeCasts_S1024_S1x1024 : S1024.ShapeCasts S1x1024
  shapeCasts_S512_S1x512 : S512.ShapeCasts S1x512
  shapeCasts_S256_S1x256 : S256.ShapeCasts S1x256
  inb_S512x256_S512x256_0_0 : ∀ a, (![0, 0] : Fin 2 → Nat) a + S512x256.size a ≤ S512x256.size a
  h_S512x256 : 0 < S512x256.numel
  reduces_S512x256_S512 : S512x256.Reduces [1] S512
  shapeCasts_S512_S512x1 : S512.ShapeCasts S512x1
  inb_S512x1024_S512x1024_0_0 : ∀ a, (![0, 0] : Fin 2 → Nat) a + S512x1024.size a ≤ S512x1024.size a
  h_S512x1024 : 0 < S512x1024.numel
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S512x1_S512x1_0_0 : ∀ a, (![0, 0] : Fin 2 → Nat) a + S512x1.size a ≤ S512x1.size a
  h_S512x1 : 0 < S512x1.numel
  shapeCasts_S512x1_S512x1 : S512x1.ShapeCasts S512x1
  iota_S512x8_d1_w32 : S512x8.Iotas .tc 32 [1]
  broadcasts_S512x1_S512x8 : S512x1.Broadcasts S512x8
  natLt_1_32 : 1 < 32
  inb_S8x256_S8x256_0_0 : ∀ a, (![0, 0] : Fin 2 → Nat) a + S8x256.size a ≤ S8x256.size a
  h_S8x256 : 0 < S8x256.numel
  shapeCasts_S8x256_S8x256 : S8x256.ShapeCasts S8x256
  inb_S8x1_S8x1_0_0 : ∀ a, (![0, 0] : Fin 2 → Nat) a + S8x1.size a ≤ S8x1.size a
  h_S8x1 : 0 < S8x1.numel
  shapeCasts_S8x1_S8x1 : S8x1.ShapeCasts S8x1
  dot_S512x1024_S1024x2048_S512x2048_1_0_0_1_n_n_wf : DotDims.WF S512x1024 S1024x2048 S512x2048 [1] [0] [0] [1] [] []
  dot_S512x2048_S2048x1024_S512x1024_1_0_0_1_n_n_wf : DotDims.WF S512x2048 S2048x1024 S512x1024 [1] [0] [0] [1] [] []
  dot_S512x1024_S1024x512_S512x512_1_0_0_1_n_n_wf : DotDims.WF S512x1024 S1024x512 S512x512 [1] [0] [0] [1] [] []
  dot_S512x512_S512x512_S512x512_1_0_0_1_n_n_wf : DotDims.WF S512x512 S512x512 S512x512 [1] [0] [0] [1] [] []
  dot_S512x512_S512x256_S512x256_1_0_0_1_n_n_wf : DotDims.WF S512x512 S512x256 S512x256 [1] [0] [0] [1] [] []
  dot_S512x8_S8x256_S512x256_1_0_0_1_n_n_wf : DotDims.WF S512x8 S8x256 S512x256 [1] [0] [0] [1] [] []
  dot_S512x8_S8x1_S512x1_1_0_0_1_n_n_wf : DotDims.WF S512x8 S8x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S16384x256.size a
  hwx0_0 : ∀ i : grid0.Coords, EltTy.bits .f32 = 32 ∨ (Rect.block (s := S16384x256) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S16384x1024.size a
  hwx0_1 : ∀ i : grid0.Coords, EltTy.bits .f32 = 32 ∨ (Rect.block (s := S16384x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S16384x1.size a
  hwx0_2 : ∀ i : grid0.Coords, EltTy.bits .i32 = 32 ∨ (Rect.block (s := S16384x1) S512x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S1024x2048.size a
  hwx0_3 : ∀ i : grid0.Coords, EltTy.bits .bf16 = 32 ∨ (Rect.block (s := S1024x2048) S1024x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048x1024.size a ≤ S2048x1024.size a
  hwx0_5 : ∀ i : grid0.Coords, EltTy.bits .bf16 = 32 ∨ (Rect.block (s := S2048x1024) S2048x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x512.size a ≤ S1024x512.size a
  hwx0_7 : ∀ i : grid0.Coords, EltTy.bits .bf16 = 32 ∨ (Rect.block (s := S1024x512) S1024x512.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x512.size a ≤ S512x512.size a
  hwx0_9 : ∀ i : grid0.Coords, EltTy.bits .bf16 = 32 ∨ (Rect.block (s := S512x512) S512x512.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x512.size a ≤ S1x512.size a
  hwx0_10 : ∀ i : grid0.Coords, EltTy.bits .f32 = 32 ∨ (Rect.block (s := S1x512) S1x512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S512x256.size a ≤ S512x256.size a
  hwx0_11 : ∀ i : grid0.Coords, EltTy.bits .bf16 = 32 ∨ (Rect.block (s := S512x256) S512x256.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x256.size a ≤ S1x256.size a
  hwx0_12 : ∀ i : grid0.Coords, EltTy.bits .f32 = 32 ∨ (Rect.block (s := S1x256) S1x256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S8x256.size a ≤ S8x256.size a
  hwx0_13 : ∀ i : grid0.Coords, EltTy.bits .bf16 = 32 ∨ (Rect.block (s := S8x256) S8x256.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S8x1.size a ≤ S8x1.size a
  hwx0_14 : ∀ i : grid0.Coords, EltTy.bits .bf16 = 32 ∨ (Rect.block (s := S8x1) S8x1.size (cc0_transform_14 i) (hinb0_14 i)).WholeWords (EltTy.packing .bf16)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S512x1.size a ≤ S16384x1.size a
  hwx0_15 : ∀ i : grid0.Coords, EltTy.bits .f32 = 32 ∨ (Rect.block (s := S16384x1) S512x1.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S512x512.size a ≤ S16384x512.size a
  hwx0_16 : ∀ i : grid0.Coords, EltTy.bits .f32 = 32 ∨ (Rect.block (s := S16384x512) S512x512.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S512x256.size a ≤ S16384x256.size a
  hwx0_17 : ∀ i : grid0.Coords, EltTy.bits .f32 = 32 ∨ (Rect.block (s := S16384x256) S512x256.size (cc0_transform_17 i) (hinb0_17 i)).WholeWords (EltTy.packing .f32)

variable [Facts₀]

def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S512x8_S8x256_S512x256_1_0_0_1_n_n : DotDims S512x8 S8x256 S512x256 where
  lhsContracting := [1]
  rhsContracting := [0]
  lhsNonContracting := [0]
  rhsNonContracting := [1]
  lhsBatch := []
  rhsBatch := []
  wf := dot_S512x8_S8x256_S512x256_1_0_0_1_n_n_wf
def dot_S512x8_S8x1_S512x1_1_0_0_1_n_n : DotDims S512x8 S8x1 S512x1 where
  lhsContracting := [1]
  rhsContracting := [0]
  lhsNonContracting := [0]
  rhsNonContracting := [1]
  lhsBatch := []
  rhsBatch := []
  wf := dot_S512x8_S8x1_S512x1_1_0_0_1_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S2048x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1024x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v12) S1x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S512x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v13) S1x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v6) S512x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v14) S1x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v7) S8x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v9) S8x1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v15_0) S512x1.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v15_1) S512x512.size cc0_transform_16 reads0_16 true false 2 stage0_16 sem0_16
    hrank0 hreads0_16 hinb0_16 nbuf0_16 (Memref.isWhole_whole _) hwx0_16 hstage0_16

abbrev win0_17 : Pipeline.Window sig grid0 :=
  Pipeline.Window.ofSpec (Memref.whole main_v15_2) S512x256.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

class Facts : Prop extends Facts₀ where

variable [Facts]
-- ==== ReferenceIdeal.lean ====
abbrev S16384x256 : Shape := ⟨2, ![16384, 256]⟩
abbrev S16384x1024 : Shape := ⟨2, ![16384, 1024]⟩
abbrev S16384 : Shape := ⟨1, ![16384]⟩
abbrev S1024x2048 : Shape := ⟨2, ![1024, 2048]⟩
abbrev S2048 : Shape := ⟨1, ![2048]⟩
abbrev S2048x1024 : Shape := ⟨2, ![2048, 1024]⟩
abbrev S1024 : Shape := ⟨1, ![1024]⟩
abbrev S1024x512 : Shape := ⟨2, ![1024, 512]⟩
abbrev S512 : Shape := ⟨1, ![512]⟩
abbrev S512x512 : Shape := ⟨2, ![512, 512]⟩
abbrev S512x256 : Shape := ⟨2, ![512, 256]⟩
abbrev S256 : Shape := ⟨1, ![256]⟩
abbrev S8x256 : Shape := ⟨2, ![8, 256]⟩
abbrev S8 : Shape := ⟨1, ![8]⟩
abbrev S_ : Shape := ⟨0, ![]⟩
abbrev S16384x1 : Shape := ⟨2, ![16384, 1]⟩
abbrev S16384x2048 : Shape := ⟨2, ![16384, 2048]⟩
abbrev S1x2048 : Shape := ⟨2, ![1, 2048]⟩
abbrev S1x1024 : Shape := ⟨2, ![1, 1024]⟩
abbrev S16384x512 : Shape := ⟨2, ![16384, 512]⟩
abbrev S1x512 : Shape := ⟨2, ![1, 512]⟩
abbrev S1x256 : Shape := ⟨2, ![1, 256]⟩

abbrev nBuf : Space → Nat
  | .hbm => 86
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16384x1024, .f32⟩
  | .hbm, ⟨2, _⟩ => ⟨S16384, .i32⟩
  | .hbm, ⟨3, _⟩ => ⟨S1024x2048, .f32⟩
  | .hbm, ⟨4, _⟩ => ⟨S2048, .f32⟩
  | .hbm, ⟨5, _⟩ => ⟨S2048x1024, .f32⟩
  | .hbm, ⟨6, _⟩ => ⟨S1024, .f32⟩
  | .hbm, ⟨7, _⟩ => ⟨S1024x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S512x256, .f32⟩
  | .hbm, ⟨12, _⟩ => ⟨S256, .f32⟩
  | .hbm, ⟨13, _⟩ => ⟨S8x256, .f32⟩
  | .hbm, ⟨14, _⟩ => ⟨S8, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S16384x2048, .f32⟩
  | .hbm, ⟨19, _⟩ => ⟨S1x2048, .f32⟩
  | .hbm, ⟨20, _⟩ => ⟨S16384x2048, .f32⟩
  | .hbm, ⟨21, _⟩ => ⟨S16384x2048, .f32⟩
  | .hbm, ⟨22, _⟩ => ⟨S_, .f32⟩
  | .hbm, ⟨23, _⟩ => ⟨S16384x2048, .f32⟩
  | .hbm, ⟨24, _⟩ => ⟨S16384x2048, .f32⟩
  | .hbm, ⟨25, _⟩ => ⟨S16384x1024, .f32⟩
  | .hbm, ⟨26, _⟩ => ⟨S1x1024, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384x1024, .f32⟩
  | .hbm, ⟨31, _⟩ => ⟨S16384x1024, .f32⟩
  | .hbm, ⟨32, _⟩ => ⟨S16384x512, .f32⟩
  | .hbm, ⟨33, _⟩ => ⟨S1x512, .f32⟩
  | .hbm, ⟨34, _⟩ => ⟨S16384x512, .f32⟩
  | .hbm, ⟨35, _⟩ => ⟨S16384x512, .f32⟩
  | .hbm, ⟨36, _⟩ => ⟨S_, .f32⟩
  | .hbm, ⟨37, _⟩ => ⟨S16384x512, .f32⟩
  | .hbm, ⟨38, _⟩ => ⟨S16384x512, .f32⟩
  | .hbm, ⟨39, _⟩ => ⟨S16384x512, .f32⟩
  | .hbm, ⟨40, _⟩ => ⟨S1x512, .f32⟩
  | .hbm, ⟨41, _⟩ => ⟨S16384x512, .f32⟩
  | .hbm, ⟨42, _⟩ => ⟨S16384x512, .f32⟩
  | .hbm, ⟨43, _⟩ => ⟨S_, .f32⟩
  | .hbm, ⟨44, _⟩ => ⟨S16384x512, .f32⟩
  | .hbm, ⟨45, _⟩ => ⟨S16384x512, .f32⟩
  | .hbm, ⟨46, _⟩ => ⟨S16384x256, .f32⟩
  | .hbm, ⟨47, _⟩ => ⟨S1x256, .f32⟩
  | .hbm, ⟨48, _⟩ => ⟨S16384x256, .f32⟩
  | .hbm, ⟨49, _⟩ => ⟨S16384x256, .f32⟩
  | .hbm, ⟨50, _⟩ => ⟨S_, .f32⟩
  | .hbm, ⟨51, _⟩ => ⟨S16384x256, .f32⟩
  | .hbm, ⟨52, _⟩ => ⟨S16384x256, .f32⟩
  | .hbm, ⟨53, _⟩ => ⟨S_, .i32⟩
  | .hbm, ⟨54, _⟩ => ⟨S16384, .i32⟩
  | .hbm, ⟨55, _⟩ => ⟨S16384, .i1⟩
  | .hbm, ⟨56, _⟩ => ⟨S_, .i32⟩
  | .hbm, ⟨57, _⟩ => ⟨S16384, .i32⟩
  | .hbm, ⟨58, _⟩ => ⟨S16384, .i32⟩
  | .hbm, ⟨59, _⟩ => ⟨S16384, .i32⟩
  | .hbm, ⟨60, _⟩ => ⟨S16384x1, .i32⟩
  | .hbm, ⟨61, _⟩ => ⟨S16384x256, .f32⟩
  | .hbm, ⟨62, _⟩ => ⟨S16384x256, .f32⟩
  | .hbm, ⟨63, _⟩ => ⟨S_, .f32⟩
  | .hbm, ⟨64, _⟩ => ⟨S16384, .f32⟩
  | .hbm, ⟨65, _⟩ => ⟨S16384x1, .f32⟩
  | .hbm, ⟨66, _⟩ => ⟨S_, .i32⟩
  | .hbm, ⟨67, _⟩ => ⟨S16384, .i32⟩
  | .hbm, ⟨68, _⟩ => ⟨S16384, .i1⟩
  | .hbm, ⟨69, _⟩ => ⟨S_, .i32⟩
  | .hbm, ⟨70, _⟩ => ⟨S16384, .i32⟩
  | .hbm, ⟨71, _⟩ => ⟨S16384, .i32⟩
  | .hbm, ⟨72, _⟩ => ⟨S16384, .i32⟩
  | .hbm, ⟨73, _⟩ => ⟨S16384x1, .i32⟩
  | .hbm, ⟨74, _⟩ => ⟨S16384, .f32⟩
  | .hbm, ⟨75, _⟩ => ⟨S16384x1, .f32⟩
  | .hbm, ⟨76, _⟩ => ⟨S16384x1, .f32⟩
  | .hbm, ⟨77, _⟩ => ⟨S16384x1, .f32⟩
  | .hbm, ⟨78, _⟩ => ⟨S16384x1, .f32⟩
  | .hbm, ⟨79, _⟩ => ⟨S16384x1, .f32⟩
  | .hbm, ⟨80, _⟩ => ⟨S_, .f32⟩
  | .hbm, ⟨81, _⟩ => ⟨S16384x1, .f32⟩
  | .hbm, ⟨82, _⟩ => ⟨S16384x1, .f32⟩
  | .hbm, ⟨83, _⟩ => ⟨S_, .f32⟩
  | .hbm, ⟨84, _⟩ => ⟨S16384x1, .f32⟩
  | .hbm, ⟨85, _⟩ => ⟨S16384x1, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call0_cst : Ref sig .tc := ⟨.hbm, 22, rfl⟩
abbrev main_call0_v0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_call1_cst : Ref sig .tc := ⟨.hbm, 29, rfl⟩
abbrev main_call1_v0 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_call2_cst : Ref sig .tc := ⟨.hbm, 36, rfl⟩
abbrev main_call2_v0 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_call3_cst : Ref sig .tc := ⟨.hbm, 43, rfl⟩
abbrev main_call3_v0 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_call4_cst : Ref sig .tc := ⟨.hbm, 50, rfl⟩
abbrev main_call4_v0 : Ref sig .tc := ⟨.hbm, 51, rfl⟩
abbrev main_v26 : Ref sig .tc := ⟨.hbm, 52, rfl⟩
abbrev main_c : Ref sig .tc := ⟨.hbm, 53, rfl⟩
abbrev main_v27 : Ref sig .tc := ⟨.hbm, 54, rfl⟩
abbrev main_v28 : Ref sig .tc := ⟨.hbm, 55, rfl⟩
abbrev main_c_0 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_1 : Ref sig .tc := ⟨.hbm, 63, rfl⟩
abbrev main_v35 : Ref sig .tc := ⟨.hbm, 64, rfl⟩
abbrev main_v36 : Ref sig .tc := ⟨.hbm, 65, rfl⟩
abbrev main_c_2 : Ref sig .tc := ⟨.hbm, 66, rfl⟩
abbrev main_v37 : Ref sig .tc := ⟨.hbm, 67, rfl⟩
abbrev main_v38 : Ref sig .tc := ⟨.hbm, 68, rfl⟩
abbrev main_c_3 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_4 : Ref sig .tc := ⟨.hbm, 80, rfl⟩
abbrev main_v49 : Ref sig .tc := ⟨.hbm, 81, rfl⟩
abbrev main_v50 : Ref sig .tc := ⟨.hbm, 82, rfl⟩
abbrev main_cst_5 : Ref sig .tc := ⟨.hbm, 83, rfl⟩
abbrev main_v51 : Ref sig .tc := ⟨.hbm, 84, rfl⟩
abbrev main_v52 : Ref sig .tc := ⟨.hbm, 85, rfl⟩

abbrev nD : Nat := 1
abbrev τ : Topo := Topo.v7x

variable {F : FTy → Type} [FloatOps F]

class Facts₀ : Prop where
  reducesTo_S16384x256_S16384_d1 : S16384x256.ReducesTo [1] S16384
  h_S_ : 0 < S_.numel
  bcast_S16384_S16384x1_0 : S16384.BroadcastsInDim S16384x1 (![0] : Fin 1 → Fin S16384x1.rank)
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  bcast_S_S16384x2048 : S_.BroadcastsInDim S16384x2048 (![] : Fin 0 → Fin S16384x2048.rank)
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S_S16384x512 : S_.BroadcastsInDim S16384x512 (![] : Fin 0 → Fin S16384x512.rank)
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  bcast_S_S16384 : S_.BroadcastsInDim S16384 (![] : Fin 0 → Fin S16384.rank)
  bcast_S_S16384x1 : S_.BroadcastsInDim S16384x1 (![] : Fin 0 → Fin S16384x1.rank)
  dot_S16384x1024_S1024x2048_S16384x2048_1_0_0_1_n_n_wf : DotDims.WF S16384x1024 S1024x2048 S16384x2048 [1] [0] [0] [1] [] []
  dot_S16384x2048_S2048x1024_S16384x1024_1_0_0_1_n_n_wf : DotDims.WF S16384x2048 S2048x1024 S16384x1024 [1] [0] [0] [1] [] []
  dot_S16384x1024_S1024x512_S16384x512_1_0_0_1_n_n_wf : DotDims.WF S16384x1024 S1024x512 S16384x512 [1] [0] [0] [1] [] []
  dot_S16384x512_S512x512_S16384x512_1_0_0_1_n_n_wf : DotDims.WF S16384x512 S512x512 S16384x512 [1] [0] [0] [1] [] []
  dot_S16384x512_S512x256_S16384x256_1_0_0_1_n_n_wf : DotDims.WF S16384x512 S512x256 S16384x256 [1] [0] [0] [1] [] []
  gather_S8x256_S16384x1_S16384x256_1_0_n_n_0_1_1256_wf : GatherDims.WF S8x256 S16384x1 S16384x256 [1] [0] [] [0] [] 1 ![1, 256]
  gather_S8_S16384x1_S16384_n_0_n_n_0_1_1_wf : GatherDims.WF S8 S16384x1 S16384 [] [0] [] [0] [] 1 ![1]

variable [Facts₀]

def dot_S16384x1024_S1024x2048_S16384x2048_1_0_0_1_n_n : DotDims S16384x1024 S1024x2048 S16384x2048 where
  lhsContracting := [1]
  rhsContracting := [0]
  lhsNonContracting := [0]
  rhsNonContracting := [1]
  lhsBatch := []
  rhsBatch := []
  wf := dot_S16384x1024_S1024x2048_S16384x2048_1_0_0_1_n_n_wf
def dot_S16384x2048_S2048x1024_S16384x1024_1_0_0_1_n_n : DotDims S16384x2048 S2048x1024 S16384x1024 where
  lhsContracting := [1]
  rhsContracting := [0]
  lhsNonContracting := [0]
  rhsNonContracting := [1]
  lhsBatch := []
  rhsBatch := []
  wf := dot_S16384x2048_S2048x1024_S16384x1024_1_0_0_1_n_n_wf
def dot_S16384x1024_S1024x512_S16384x512_1_0_0_1_n_n : DotDims S16384x1024 S1024x512 S16384x512 where
  lhsContracting := [1]
  rhsContracting := [0]
  lhsNonContracting := [0]
  rhsNonContracting := [1]
  lhsBatch := []
  rhsBatch := []
  wf := dot_S16384x1024_S1024x512_S16384x512_1_0_0_1_n_n_wf
def dot_S16384x512_S512x512_S16384x512_1_0_0_1_n_n : DotDims S16384x512 S512x512 S16384x512 where
  lhsContracting := [1]
  rhsContracting := [0]
  lhsNonContracting := [0]
  rhsNonContracting := [1]
  lhsBatch := []
  rhsBatch := []
  wf := dot_S16384x512_S512x512_S16384x512_1_0_0_1_n_n_wf
def dot_S16384x512_S512x256_S16384x256_1_0_0_1_n_n : DotDims S16384x512 S512x256 S16384x256 where
  lhsContracting := [1]
  rhsContracting := [0]
  lhsNonContracting := [0]
  rhsNonContracting := [1]
  lhsBatch := []
  rhsBatch := []
  wf := dot_S16384x512_S512x256_S16384x256_1_0_0_1_n_n_wf
def gather_S8x256_S16384x1_S16384x256_1_0_n_n_0_1_1256 : GatherDims S8x256 S16384x1 S16384x256 where
  offsetDims := [1]
  collapsedSliceDims := [0]
  operandBatchingDims := []
  startIndicesBatchingDims := []
  startIndexMap := [0]
  indexVectorDim := 1
  sliceSizes := ![1, 256]
  wf := gather_S8x256_S16384x1_S16384x256_1_0_n_n_0_1_1256_wf
def gather_S8_S16384x1_S16384_n_0_n_n_0_1_1 : GatherDims S8 S16384x1 S16384 where
  offsetDims := []
  collapsedSliceDims := [0]
  operandBatchingDims := []
  startIndicesBatchingDims := []
  startIndexMap := [0]
  indexVectorDim := 1
  sliceSizes := ![1]
  wf := gather_S8_S16384x1_S16384_n_0_n_n_0_1_1_wf

class Facts : Prop extends Facts₀ where

variable [Facts]
-- ==== Proof.LibPlainDot.lean ====
/-
  GENERAL LEMMAS: a rows-by-columns product read at one entry, for any three extents.

  For a left operand `[A, K]` and a right operand `[K, N]` contracted over the shared axis, entry `(p, j)` of the
  product is `∑ k, l (p, k) * r (k, j)` on the extended reals: this holds of the matrix unit's product into a zero
  accumulator and of the host's general dot alike, whatever the three extents are. Both follow from the library's
  reading of a contraction as a sum over the contraction index, re-indexed by the one contracted coordinate.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable (A K N : ℕ)

/-- The left operand's row at output entry `i` is `i`'s row. -/
theorem plain_lhs_row (i : (⟨2, ![A, N]⟩ : Shape).Idx) (q : (DotDims.plain A K N).contr.Idx) :
    ((DotDims.plain A K N).lhsIdx i q 0).val = (i 0).val := by
  unfold DotDims.lhsIdx
  rw [dif_neg (show ¬(0 : Fin (⟨2, ![A, K]⟩ : Shape).rank) ∈ (DotDims.plain A K N).lhsBatch from List.not_mem_nil),
    dif_pos (show (0 : Fin (⟨2, ![A, K]⟩ : Shape).rank) ∈ (DotDims.plain A K N).lhsNonContracting from List.mem_singleton.mpr rfl)]
  rfl

/-- The left operand's column is the contracted coordinate. -/
theorem plain_lhs_col (i : (⟨2, ![A, N]⟩ : Shape).Idx) (q : (DotDims.plain A K N).contr.Idx) :
    ((DotDims.plain A K N).lhsIdx i q 1).val = (q ⟨0, Nat.one_pos⟩).val :=
  (DotDims.plain A K N).lhsIdx_val_of_single rfl i q

/-- The right operand's row is the contracted coordinate. -/
theorem plain_rhs_row (i : (⟨2, ![A, N]⟩ : Shape).Idx) (q : (DotDims.plain A K N).contr.Idx) :
    ((DotDims.plain A K N).rhsIdx i q 0).val = (q ⟨0, Nat.one_pos⟩).val :=
  (DotDims.plain A K N).rhsIdx_val_of_single rfl i q

/-- The right operand's column at output entry `i` is `i`'s column. -/
theorem plain_rhs_col (i : (⟨2, ![A, N]⟩ : Shape).Idx) (q : (DotDims.plain A K N).contr.Idx) :
    ((DotDims.plain A K N).rhsIdx i q 1).val = (i 1).val := by
  unfold DotDims.rhsIdx
  rw [dif_neg (show ¬(1 : Fin (⟨2, ![K, N]⟩ : Shape).rank) ∈ (DotDims.plain A K N).rhsBatch from List.not_mem_nil),
    dif_pos (show (1 : Fin (⟨2, ![K, N]⟩ : Shape).rank) ∈ (DotDims.plain A K N).rhsNonContracting from List.mem_singleton.mpr rfl)]
  rfl

/-- The contraction's sum over the contraction index is the sum over the shared coordinate `k`. -/
theorem plain_sum {φ₁ φ₂ : FTy} (l : FVec Ideal ⟨2, ![A, K]⟩ φ₁) (r : FVec Ideal ⟨2, ![K, N]⟩ φ₂) (p : Fin A) (j : Fin N) :
    (∑ q : (DotDims.plain A K N).contr.Idx,
        l ((DotDims.plain A K N).lhsIdx (ix2 p j) q) * r ((DotDims.plain A K N).rhsIdx (ix2 p j) q) : EReal)
      = ∑ k : Fin K, l (ix2 p k) * r (ix2 k j) := by
  rw [← Equiv.sum_comp (contrEquiv1 (DotDims.plain A K N) K rfl rfl).symm]
  refine Finset.sum_congr rfl fun k _ => ?_
  have hk := contrEquiv1_symm_val (DotDims.plain A K N) K rfl rfl k
  have el : (DotDims.plain A K N).lhsIdx (ix2 p j) ((contrEquiv1 (DotDims.plain A K N) K rfl rfl).symm k) = ix2 p k :=
    funext fun a => Fin.ext (by
      match a with
      | ⟨0, _⟩ => exact plain_lhs_row A K N _ _
      | ⟨1, _⟩ => exact (plain_lhs_col A K N _ _).trans hk)
  have er : (DotDims.plain A K N).rhsIdx (ix2 p j) ((contrEquiv1 (DotDims.plain A K N) K rfl rfl).symm k) = ix2 k j :=
    funext fun a => Fin.ext (by
      match a with
      | ⟨0, _⟩ => exact (plain_rhs_row A K N _ _).trans hk
      | ⟨1, _⟩ => exact plain_rhs_col A K N _ _)
  rw [el, er]

/-- The matrix unit's product into the zero accumulator, at entry `(p, j)`. -/
theorem matmul_plain_apply {φ₁ φ₂ : FTy} (prec : Option ContractPrecision)
    (l : FVec Ideal ⟨2, ![A, K]⟩ φ₁) (r : FVec Ideal ⟨2, ![K, N]⟩ φ₂) (p : Fin A) (j : Fin N) :
    FloatOps.matmul (DotDims.plain A K N) prec l r (constant ⟨2, ![A, N]⟩ .f32 0x00000000#32) (ix2 p j)
      = ∑ k : Fin K, l (ix2 p k) * r (ix2 k j) :=
  (Ideal.matmul_constant_zero_apply _ prec l r (ix2 p j)).trans (plain_sum A K N l r p j)

/-- The host's general dot, at entry `(p, j)`. -/
theorem dotGeneral_plain_apply {φ₁ φ₂ : FTy} (prec : Option ContractPrecision) (sched : HostSchedule)
    (l : FVec Ideal ⟨2, ![A, K]⟩ φ₁) (r : FVec Ideal ⟨2, ![K, N]⟩ φ₂) (p : Fin A) (j : Fin N) :
    FloatOps.dotGeneral (DotDims.plain A K N) prec sched l r (ix2 p j)
      = ∑ k : Fin K, l (ix2 p k) * r (ix2 k j) :=
  (Ideal.dotGeneral_apply _ prec sched l r (ix2 p j)).trans (plain_sum A K N l r p j)

end Idealize.ShloMosaic.PlainDot

end
-- ==== Proof.LibDenseLayer.lean ====
/-
  GENERAL LEMMAS: one fully connected layer with a rectifier, on the extended reals, for any extents.

  * `dense x W b`: entry `(r, j) = max (∑ k, x (r, k) * W (k, j) + b j) 0`.
  * `rows off h x`: the block of rows `off, …, off + A' - 1` of an array; a layer acts row by row, so it commutes
    with taking a block of rows (`dense_rows`).
  * The same layer as a kernel body spells it — the operand narrowed (no change of value), the matrix unit's product
    into a zero accumulator, a `[1, N]` bias row broadcast down the rows, the rectifier against a zero splat
    (`layer_of_matmul`) — and as a host program spells it — the general dot, the `[N]` bias broadcast to `[1, N]` and
    then down the rows, the rectifier against a broadcast zero (`layer_of_dot`): both are `dense`.
-/
import proofs.«409852_j86955907875178_3_alg».proof.Proof.LibPlainDot
import Idealize.ShloMosaic.Lib.Pipeline.Value

noncomputable section

open scoped BigOperators

namespace Idealize.ShloMosaic.DenseLayer

open Idealize.ShloMosaic Idealize.ShloMosaic.ValueIdx Idealize.ShloMosaic.PlainDot

/-! ## The layer -/

/-- One fully connected layer followed by the rectifier. -/
def dense {A K N : ℕ} (x : (⟨2, ![A, K]⟩ : Shape).Idx → EReal) (W : (⟨2, ![K, N]⟩ : Shape).Idx → EReal)
    (b : (⟨1, ![N]⟩ : Shape).Idx → EReal) : (⟨2, ![A, N]⟩ : Shape).Idx → EReal :=
  fun i => max ((∑ k : Fin K, x (ix2 (i 0) k) * W (ix2 k (i 1))) + b (ix1 (i 1))) 0

theorem dense_apply {A K N : ℕ} (x : (⟨2, ![A, K]⟩ : Shape).Idx → EReal) (W : (⟨2, ![K, N]⟩ : Shape).Idx → EReal)
    (b : (⟨1, ![N]⟩ : Shape).Idx → EReal) (p : Fin A) (j : Fin N) :
    dense x W b (ix2 p j) = max ((∑ k : Fin K, x (ix2 p k) * W (ix2 k j)) + b (ix1 j)) 0 := rfl

/-! ## Blocks of rows -/

/-- Row `p` of the block starting at row `off` is row `off + p` of the array. -/
def shiftRow {A A' : ℕ} (off : ℕ) (h : off + A' ≤ A) (p : Fin A') : Fin A := ⟨off + p.val, by have := p.isLt; omega⟩

/-- The block of rows `off, …, off + A' - 1`. -/
def rows {α : Type} {A A' K : ℕ} (off : ℕ) (h : off + A' ≤ A) (x : (⟨2, ![A, K]⟩ : Shape).Idx → α) :
    (⟨2, ![A', K]⟩ : Shape).Idx → α :=
  fun y => x (ix2 (shiftRow off h (y 0)) (y 1))

theorem rows_apply {α : Type} {A A' K : ℕ} (off : ℕ) (h : off + A' ≤ A) (x : (⟨2, ![A, K]⟩ : Shape).Idx → α)
    (p : Fin A') (k : Fin K) : rows off h x (ix2 p k) = x (ix2 (shiftRow off h p) k) := rfl

/-- A layer of a block of rows is that block of the layer. -/
theorem dense_rows {A A' K N : ℕ} (off : ℕ) (h : off + A' ≤ A) (x : (⟨2, ![A, K]⟩ : Shape).Idx → EReal)
    (W : (⟨2, ![K, N]⟩ : Shape).Idx → EReal) (b : (⟨1, ![N]⟩ : Shape).Idx → EReal) :
    dense (rows off h x) W b = rows off h (dense x W b) := rfl

/-! ## The layer as the two programs spell it -/

/-- The kernel's spelling: the operand narrowed (no change of value), the weight block as loaded, the product into a zero
    accumulator, the `[1, N]` bias row broadcast down the rows, the rectifier against a zero splat. -/
theorem layer_of_matmul {A K N : ℕ} (x : FVec Ideal ⟨2, ![A, K]⟩ .f32) (W : FVec Ideal ⟨2, ![K, N]⟩ .bf16)
    (b : FVec Ideal ⟨2, ![1, N]⟩ .f32) (hbits : (FTy.bf16).bits < (FTy.f32).bits)
    (hW : (⟨2, ![K, N]⟩ : Shape).ShapeCasts ⟨2, ![K, N]⟩) (hb : (⟨2, ![1, N]⟩ : Shape).ShapeCasts ⟨2, ![1, N]⟩)
    (hbc : (⟨2, ![1, N]⟩ : Shape).Broadcasts ⟨2, ![A, N]⟩) :
    maximumf (addf (matmul (DotDims.plain A K N) none (truncf .bf16 x hbits) (shapeCast ⟨2, ![K, N]⟩ W hW)
          (constant ⟨2, ![A, N]⟩ .f32 0x00000000#32))
        (broadcastTo ⟨2, ![A, N]⟩ (shapeCast ⟨2, ![1, N]⟩ b hb) hbc))
      (broadcast ⟨2, ![A, N]⟩ (Scalar.ofBits .f32 0x00000000#32))
      = dense x W (fun j => b (ix2 (0 : Fin 1) (j 0))) := by
  funext i
  obtain ⟨p, j, rfl⟩ : ∃ (p : Fin A) (j : Fin N), i = ix2 p j := ⟨i 0, i 1, eq_ix2 i⟩
  have h1 : FloatOps.matmul (DotDims.plain A K N) none (truncf .bf16 x hbits) (shapeCast ⟨2, ![K, N]⟩ W hW)
      (constant ⟨2, ![A, N]⟩ .f32 0x00000000#32) (ix2 p j) = ∑ k : Fin K, x (ix2 p k) * W (ix2 k j) := by
    rw [matmul_plain_apply, shapeCast_self]; rfl
  have h2 : broadcastTo ⟨2, ![A, N]⟩ (shapeCast ⟨2, ![1, N]⟩ b hb) hbc (ix2 p j) = b (ix2 (0 : Fin 1) j) := by
    rw [shapeCast_self]
    refine broadcastTo_apply b hbc (ix2 p j) (ix2 (0 : Fin 1) j) (fun a => ?_)
    match a with
    | ⟨0, _⟩ => show (0 : ℕ) = if (1 : ℕ) = 1 then 0 else _; rw [if_pos rfl]
    | ⟨1, _⟩ =>
      show j.val = if N = 1 then 0 else j.val
      have := j.isLt
      split <;> omega
  show max (FloatOps.matmul (DotDims.plain A K N) none (truncf .bf16 x hbits) (shapeCast ⟨2, ![K, N]⟩ W hW)
      (constant ⟨2, ![A, N]⟩ .f32 0x00000000#32) (ix2 p j)
      + broadcastTo ⟨2, ![A, N]⟩ (shapeCast ⟨2, ![1, N]⟩ b hb) hbc (ix2 p j)) (Ideal.ofBits .f32 0x00000000#32) = _
  rw [h1, h2, Ideal.ofBits_zero_f32]
  rfl

/-- The host's spelling: the general dot, the `[N]` bias broadcast to `[1, N]` and then down the rows, the rectifier
    against a broadcast zero. -/
theorem layer_of_dot {A K N : ℕ} (x : FVec Ideal ⟨2, ![A, K]⟩ .f32) (W : FVec Ideal ⟨2, ![K, N]⟩ .f32)
    (b : FVec Ideal ⟨1, ![N]⟩ .f32)
    (h1N : (⟨1, ![N]⟩ : Shape).BroadcastsInDim ⟨2, ![1, N]⟩ ![1])
    (hAN : (⟨2, ![1, N]⟩ : Shape).BroadcastsInDim ⟨2, ![A, N]⟩ ![0, 1])
    (h0 : (⟨0, ![]⟩ : Shape).BroadcastsInDim ⟨2, ![A, N]⟩ ![]) :
    maximumf (addf (Host.dotGeneral (DotDims.plain A K N) none x W)
        (broadcastInDim ⟨2, ![A, N]⟩ ![0, 1] hAN (broadcastInDim ⟨2, ![1, N]⟩ ![1] h1N b)))
      (broadcastInDim ⟨2, ![A, N]⟩ ![] h0 (constant ⟨0, ![]⟩ .f32 0x00000000#32))
      = dense x W b := by
  funext i
  obtain ⟨p, j, rfl⟩ : ∃ (p : Fin A) (j : Fin N), i = ix2 p j := ⟨i 0, i 1, eq_ix2 i⟩
  have h1 : Host.dotGeneral (DotDims.plain A K N) none x W (ix2 p j) = ∑ k : Fin K, x (ix2 p k) * W (ix2 k j) := by
    simp only [Host.dotGeneral]
    exact dotGeneral_plain_apply A K N none _ x W p j
  have h2 : broadcastInDim ⟨2, ![A, N]⟩ ![0, 1] hAN (broadcastInDim ⟨2, ![1, N]⟩ ![1] h1N b) (ix2 p j) = b (ix1 j) := by
    refine (broadcastInDim_apply _ hAN _ (ix2 p j) (ix2 (0 : Fin 1) j) (fun a => ?_)).trans ?_
    · match a with
      | ⟨0, _⟩ => show (0 : ℕ) = if (1 : ℕ) = 1 then 0 else _; rw [if_pos rfl]
      | ⟨1, _⟩ =>
        show j.val = if N = 1 then 0 else j.val
        have := j.isLt
        split <;> omega
    · refine broadcastInDim_apply _ h1N b (ix2 (0 : Fin 1) j) (ix1 j) (fun a => ?_)
      match a with
      | ⟨0, _⟩ =>
        show j.val = if N = 1 then 0 else j.val
        have := j.isLt
        split <;> omega
  show max (Host.dotGeneral (DotDims.plain A K N) none x W (ix2 p j)
      + broadcastInDim ⟨2, ![A, N]⟩ ![0, 1] hAN (broadcastInDim ⟨2, ![1, N]⟩ ![1] h1N b) (ix2 p j))
      (Ideal.ofBits .f32 0x00000000#32) = _
  rw [h1, h2, Ideal.ofBits_zero_f32]
  rfl

end Idealize.ShloMosaic.DenseLayer

end
-- ==== Proof.LibGatherRows.lean ====
/-
  A row gather (`x[idx]` along one axis of a rank-2 table) read at an index, in both layouts.

  Table `[N, C]`, start indices `[E, 1]`, result `[E, C]`: result element `(e, k)` is the table's
  `(r, k)`, where `r` is the index word `idx[e, 0]` read as a signed integer and clamped into
  `[0, N - 1]` (a negative number reads as row 0, one past the end as the last row).
  The transposed layout (table `[C, N]`, result `[C, E]`) gathers along axis 1 the same way.
  Beside them: the index wrap `i < 0 ? i + N : i` of a signed 32-bit word in `[-N, N)` lands in `[0, N)`.
-/
import Idealize.ShloMosaic.PureOps
import Idealize.ShloMosaic.Lib.ValueIdx

noncomputable section

namespace Idealize.ShloMosaic.RowGather

open Idealize.ShloMosaic Idealize.ShloMosaic.ValueIdx

variable {α : Type}

/-- Gather of whole rows: table `[N, C]`, indices `[E, 1]`, result `[E, C]`. -/
abbrev rowDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Gather of whole columns: table `[C, N]`, indices `[E, 1]`, result `[C, E]`. -/
abbrev colDims (C N E : Nat)
    (wf : GatherDims.WF ⟨2, ![C, N]⟩ ⟨2, ![E, 1]⟩ ⟨2, ![C, E]⟩ [0] [1] [] [1] [] 1 ![C, 1]) :
    GatherDims ⟨2, ![C, N]⟩ ⟨2, ![E, 1]⟩ ⟨2, ![C, E]⟩ where
  offsetDims := [0]
  collapsedSliceDims := [1]
  operandBatchingDims := []
  startIndicesBatchingDims := []
  startIndexMap := [1]
  indexVectorDim := 1
  sliceSizes := ![C, 1]
  wf := wf

/-- The row an index word names: read signed, clamped into `[0, N - 1]`. -/
def clampRow (N : Nat) (hN : 0 < N) {w : Nat} (i : BitVec w) : Fin N :=
  ⟨min i.toInt.toNat (N - 1), by omega⟩

/-- THE ROW GATHER READ AT `(e, k)`. -/
theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowDims N C E wf) x idx (ix2 e k)
      = x (ix2 (clampRow N hN (idx (ix2 e (0 : Fin 1)))) k) := by
  unfold Host.gather
  congr 1
  funext a
  refine Fin.ext ?_
  match a with
  | ⟨0, _⟩ =>
    show (rowDims N C E wf).start (ix2 e k) idx 0 + (rowDims N C E wf).batchCoord (ix2 e k) 0
      + (rowDims N C E wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C E wf).startIndexMap from List.mem_singleton.mpr rfl)]
    have hsi : (rowDims N C E wf).siIdx (ix2 e k) ⟨List.idxOf (0 : Fin 2) (rowDims N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N C E wf).start (ix2 e k) idx 1 + (rowDims N C E wf).batchCoord (ix2 e k) 1
      + (rowDims N C E wf).offCoord (ix2 e k) 1 = _
    rw [GatherDims.batchCoord_eq_zero _ _ _ List.not_mem_nil]
    unfold GatherDims.start
    rw [dif_neg (show (1 : Fin 2) ∉ (rowDims N C E wf).startIndexMap from (by decide : (1 : Fin 2) ∉ [(0 : Fin 2)]))]
    simp only [Nat.add_zero, Nat.zero_add]
    unfold GatherDims.offCoord
    rw [dif_pos ((GatherDims.mem_sKept _ _).mpr ⟨(by decide : (1 : Fin 2) ∉ [(0 : Fin 2)]), List.not_mem_nil⟩)]
    rfl

/-- THE COLUMN GATHER READ AT `(k, e)`. -/
theorem gather_cols_apply {C N E w : Nat} (hN : 0 < N)
    (wf : GatherDims.WF ⟨2, ![C, N]⟩ ⟨2, ![E, 1]⟩ ⟨2, ![C, E]⟩ [0] [1] [] [1] [] 1 ![C, 1])
    (x : (⟨2, ![C, N]⟩ : Shape).Idx → α) (idx : IVec ⟨2, ![E, 1]⟩ w) (e : Fin E) (k : Fin C) :
    Host.gather (colDims C N E wf) x idx (ix2 k e)
      = x (ix2 k (clampRow N hN (idx (ix2 e (0 : Fin 1))))) := by
  unfold Host.gather
  congr 1
  funext a
  refine Fin.ext ?_
  match a with
  | ⟨0, _⟩ =>
    show (colDims C N E wf).start (ix2 k e) idx 0 + (colDims C N E wf).batchCoord (ix2 k e) 0
      + (colDims C N E wf).offCoord (ix2 k e) 0 = _
    rw [GatherDims.batchCoord_eq_zero _ _ _ List.not_mem_nil]
    unfold GatherDims.start
    rw [dif_neg (show (0 : Fin 2) ∉ (colDims C N E wf).startIndexMap from (by decide : (0 : Fin 2) ∉ [(1 : Fin 2)]))]
    simp only [Nat.add_zero, Nat.zero_add]
    unfold GatherDims.offCoord
    rw [dif_pos ((GatherDims.mem_sKept _ _).mpr ⟨(by decide : (0 : Fin 2) ∉ [(1 : Fin 2)]), List.not_mem_nil⟩)]
    rfl
  | ⟨1, _⟩ =>
    show (colDims C N E wf).start (ix2 k e) idx 1 + (colDims C N E wf).batchCoord (ix2 k e) 1
      + (colDims C N E wf).offCoord (ix2 k e) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colDims C N E wf).startIndexMap from List.mem_singleton.mpr rfl)]
    have hsi : (colDims C N E wf).siIdx (ix2 k e) ⟨List.idxOf (1 : Fin 2) (colDims C N E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

/-- The wrapped index `i < 0 ? i + 100000 : i` as the programs spell it. -/
def wrap (i : BitVec 32) : BitVec 32 :=
  Scalar.select (IntOp.cmpi .slt i 0#32) (IntOp.addi i 100000#32) i

/-- The three constants read as signed integers. -/
private theorem toInt_zero32 : (0#32 : BitVec 32).toInt = 0 := by decide
private theorem toInt_n32 : (100000#32 : BitVec 32).toInt = 100000 := by decide
private theorem toInt_m32 : (99999#32 : BitVec 32).toInt = 99999 := by decide

/-- On a negative word the wrap adds `100000`. -/
private theorem wrap_of_neg (i : BitVec 32) (h : i.toInt < 0) : wrap i = i + 100000#32 := by
  have hs : i.slt 0#32 = true := by
    rw [BitVec.slt_iff_toInt_lt, toInt_zero32]; exact h
  show (if BitVec.ofBool (i.slt 0#32) = 1 then i + 100000#32 else i) = _
  rw [hs]; rfl

/-- On a non-negative word the wrap is the identity. -/
private theorem wrap_of_nonneg (i : BitVec 32) (h : 0 ≤ i.toInt) : wrap i = i := by
  have hs : i.slt 0#32 = false := by
    rw [BitVec.slt_eq_decide, toInt_zero32]; exact decide_eq_false (by omega)
  show (if BitVec.ofBool (i.slt 0#32) = 1 then i + 100000#32 else i) = _
  rw [hs]; rfl

/-- The wrapped word, read signed, lies in `[0, 99999]`. -/
private theorem wrap_toInt_range (i : BitVec 32) (h1 : -100000 ≤ i.toInt) (h2 : i.toInt < 100000) :
    0 ≤ (wrap i).toInt ∧ (wrap i).toInt ≤ 99999 := by
  by_cases hneg : i.toInt < 0
  · rw [wrap_of_neg i hneg, BitVec.toInt_add, toInt_n32,
      Int.bmod_eq_of_le_mul_two (by omega) (by omega)]
    omega
  · rw [wrap_of_nonneg i (by omega)]; omega

/-- Both range tests hold of a word whose signed reading lies in `[0, 99999]`. -/
private theorem range_tests (v : BitVec 32) (h : 0 ≤ v.toInt ∧ v.toInt ≤ 99999) :
    IntOp.cmpi .sge v 0#32 = 1#1 ∧ IntOp.cmpi .sle v 99999#32 = 1#1 := by
  constructor
  · show BitVec.ofBool ((0#32 : BitVec 32).sle v) = 1#1
    have : (0#32 : BitVec 32).sle v = true := by
      rw [BitVec.sle_iff_toInt_le, toInt_zero32]; exact h.1
    rw [this]; rfl
  · show BitVec.ofBool (v.sle 99999#32) = 1#1
    have : v.sle 99999#32 = true := by
      rw [BitVec.sle_iff_toInt_le, toInt_m32]; exact h.2
    rw [this]; rfl

/-- A word in `[-100000, 100000)` wraps into `[0, 100000)`: both range tests of the wrapped word hold. -/
theorem wrap_inb (i : BitVec 32) (h1 : -100000 ≤ i.toInt) (h2 : i.toInt < 100000) :
    IntOp.cmpi .sge (wrap i) 0#32 = 1#1 ∧ IntOp.cmpi .sle (wrap i) 99999#32 = 1#1 := by
  exact range_tests (wrap i) (wrap_toInt_range i h1 h2)

/-- A word that is a row number `n < 100000` is its own wrap, and in range. -/
theorem wrap_of_row (i : BitVec 32) (n : Nat) (hn : n < 100000) (h : i.toInt = (n : Int)) :
    wrap i = i ∧ IntOp.cmpi .sge (wrap i) 0#32 = 1#1 ∧ IntOp.cmpi .sle (wrap i) 99999#32 = 1#1 := by
  have hw : wrap i = i := wrap_of_nonneg i (by omega)
  refine ⟨hw, ?_⟩
  rw [hw]
  exact range_tests i (by omega)

end Idealize.ShloMosaic.RowGather

end
-- ==== Proof.Spec.lean ====
/-
  The wide-and-deep model as functions of whole arrays, on the extended reals.

  * `tower3`, `tower2`: three and two fully connected layers with rectifiers, one after the other.
  * `score wide d Wh bh sel`: row `r`'s output, the logistic function of the row sum of `wide` plus the inner product
    of `d`'s row with the head row `Wh (sel r, ·)` plus the head bias `bh (sel r)`.
  * `headOf w`: the head a domain id word routes to, the word read signed and clamped into the eight heads.
  * The towers and the score act row by row, so they commute with taking a block of rows.
-/
import proofs.«409852_j86955907875178_3_alg».proof.Proof.LibDenseLayer
import proofs.«409852_j86955907875178_3_alg».proof.Proof.LibGatherRows

noncomputable section

open scoped BigOperators

namespace Cert.WideDeep

open Idealize.ShloMosaic Idealize.ShloMosaic.ValueIdx

export Idealize.ShloMosaic.PlainDot (matmul_plain_apply dotGeneral_plain_apply)
export Idealize.ShloMosaic.DenseLayer (dense dense_apply shiftRow rows rows_apply dense_rows layer_of_matmul layer_of_dot)

/-! ## The functions -/

/-- The shared tower: three layers. -/
def tower3 {A K0 K1 K2 K3 : ℕ} (x : (⟨2, ![A, K0]⟩ : Shape).Idx → EReal)
    (W1 : (⟨2, ![K0, K1]⟩ : Shape).Idx → EReal) (b1 : (⟨1, ![K1]⟩ : Shape).Idx → EReal)
    (W2 : (⟨2, ![K1, K2]⟩ : Shape).Idx → EReal) (b2 : (⟨1, ![K2]⟩ : Shape).Idx → EReal)
    (W3 : (⟨2, ![K2, K3]⟩ : Shape).Idx → EReal) (b3 : (⟨1, ![K3]⟩ : Shape).Idx → EReal) :
    (⟨2, ![A, K3]⟩ : Shape).Idx → EReal :=
  dense (dense (dense x W1 b1) W2 b2) W3 b3

/-- The domain tower: two layers. -/
def tower2 {A K0 K1 K2 : ℕ} (x : (⟨2, ![A, K0]⟩ : Shape).Idx → EReal)
    (W1 : (⟨2, ![K0, K1]⟩ : Shape).Idx → EReal) (b1 : (⟨1, ![K1]⟩ : Shape).Idx → EReal)
    (W2 : (⟨2, ![K1, K2]⟩ : Shape).Idx → EReal) (b2 : (⟨1, ![K2]⟩ : Shape).Idx → EReal) :
    (⟨2, ![A, K2]⟩ : Shape).Idx → EReal :=
  dense (dense x W1 b1) W2 b2

/-- The routed score of every row: `sel r` is the head row `r` is routed to. -/
def score {A C E D : ℕ} (wide : (⟨2, ![A, C]⟩ : Shape).Idx → EReal) (d : (⟨2, ![A, E]⟩ : Shape).Idx → EReal)
    (Wh : (⟨2, ![D, E]⟩ : Shape).Idx → EReal) (bh : (⟨1, ![D]⟩ : Shape).Idx → EReal) (sel : Fin A → Fin D) :
    (⟨2, ![A, 1]⟩ : Shape).Idx → EReal :=
  fun i => Ideal.logistic ((∑ k : Fin C, wide (ix2 (i 0) k))
    + ((∑ j : Fin E, d (ix2 (i 0) j) * Wh (ix2 (sel (i 0)) j)) + bh (ix1 (sel (i 0)))))

theorem score_apply {A C E D : ℕ} (wide : (⟨2, ![A, C]⟩ : Shape).Idx → EReal) (d : (⟨2, ![A, E]⟩ : Shape).Idx → EReal)
    (Wh : (⟨2, ![D, E]⟩ : Shape).Idx → EReal) (bh : (⟨1, ![D]⟩ : Shape).Idx → EReal) (sel : Fin A → Fin D)
    (p : Fin A) (q : Fin 1) :
    score wide d Wh bh sel (ix2 p q) = Ideal.logistic ((∑ k : Fin C, wide (ix2 p k))
      + ((∑ j : Fin E, d (ix2 p j) * Wh (ix2 (sel p) j)) + bh (ix1 (sel p)))) := rfl

/-- The head a domain id word routes to: the word read as a signed integer, clamped into the eight heads. -/
def headOf (w : BitVec 32) : Fin 8 := RowGather.clampRow 8 (by decide) w

/-! ## Blocks of rows -/

theorem tower3_rows {A A' K0 K1 K2 K3 : ℕ} (off : ℕ) (h : off + A' ≤ A) (x : (⟨2, ![A, K0]⟩ : Shape).Idx → EReal)
    (W1 : (⟨2, ![K0, K1]⟩ : Shape).Idx → EReal) (b1 : (⟨1, ![K1]⟩ : Shape).Idx → EReal)
    (W2 : (⟨2, ![K1, K2]⟩ : Shape).Idx → EReal) (b2 : (⟨1, ![K2]⟩ : Shape).Idx → EReal)
    (W3 : (⟨2, ![K2, K3]⟩ : Shape).Idx → EReal) (b3 : (⟨1, ![K3]⟩ : Shape).Idx → EReal) :
    tower3 (rows off h x) W1 b1 W2 b2 W3 b3 = rows off h (tower3 x W1 b1 W2 b2 W3 b3) := rfl

theorem tower2_rows {A A' K0 K1 K2 : ℕ} (off : ℕ) (h : off + A' ≤ A) (x : (⟨2, ![A, K0]⟩ : Shape).Idx → EReal)
    (W1 : (⟨2, ![K0, K1]⟩ : Shape).Idx → EReal) (b1 : (⟨1, ![K1]⟩ : Shape).Idx → EReal)
    (W2 : (⟨2, ![K1, K2]⟩ : Shape).Idx → EReal) (b2 : (⟨1, ![K2]⟩ : Shape).Idx → EReal) :
    tower2 (rows off h x) W1 b1 W2 b2 = rows off h (tower2 x W1 b1 W2 b2) := rfl

/-- The score of a block of rows is that block of the score. -/
theorem score_rows {A A' C E D : ℕ} (off : ℕ) (h : off + A' ≤ A) (wide : (⟨2, ![A, C]⟩ : Shape).Idx → EReal)
    (d : (⟨2, ![A, E]⟩ : Shape).Idx → EReal) (Wh : (⟨2, ![D, E]⟩ : Shape).Idx → EReal)
    (bh : (⟨1, ![D]⟩ : Shape).Idx → EReal) (sel : Fin A → Fin D) :
    score (rows off h wide) (rows off h d) Wh bh (fun p => sel (shiftRow off h p))
      = rows off h (score wide d Wh bh sel) := rfl

end Cert.WideDeep

end
-- ==== Proof.KernelPayloads.lean ====
/-
  The kernel body's arithmetic as the model's functions of the loaded blocks.

  With formats read as the identity, the block the body stores to the shared output is the three-layer tower of the
  deep block, and the block it stores to the domain output is two more layers on top of it: each printed layer
  (narrow, multiply into a zero accumulator, add the broadcast bias row, rectify) is one `dense`.
-/
import proofs.«409852_j86955907875178_3_alg».proof.Proof.Gen.KernelIdeal.Skeleton
import proofs.«409852_j86955907875178_3_alg».proof.Proof.Spec

noncomputable section

open scoped BigOperators

namespace Cert.KernelIdeal.Pay

open Cert.KernelIdeal Cert.KernelIdeal.Gen Cert.WideDeep Idealize.ShloMosaic Idealize.ShloMosaic.ValueIdx

/-- A `[1, N]` bias row read as the `[N]` bias. -/
abbrev biasRow {N : ℕ} (b : (⟨2, ![1, N]⟩ : Shape).Idx → EReal) : (⟨1, ![N]⟩ : Shape).Idx → EReal :=
  fun j => b (ix2 (0 : Fin 1) (j 0))

/-- A `[D, 1]` column read as the `[D]` vector. -/
abbrev colVec {D : ℕ} (b : (⟨2, ![D, 1]⟩ : Shape).Idx → EReal) : (⟨1, ![D]⟩ : Shape).Idx → EReal :=
  fun j => b (ix2 (j 0) (0 : Fin 1))

/-- The shared block: three layers of the deep block. -/
theorem pay3_eq (v3 : Vec Ideal S512x1024 .f32) (v5 : Vec Ideal S1024x2048 .bf16) (v8 : Vec Ideal S1x2048 .f32)
    (v15 : Vec Ideal S2048x1024 .bf16) (v18 : Vec Ideal S1x1024 .f32) (v25 : Vec Ideal S1024x512 .bf16)
    (v28 : Vec Ideal S1x512 .f32) :
    k0_pay3 (F := Ideal) v3 v5 v8 v15 v18 v25 v28
      = tower3 v3 v5 (biasRow v8) v15 (biasRow v18) v25 (biasRow v28) := by
  unfold k0_pay3 tower3
  exact (layer_of_matmul (A := 512) (K := 1024) (N := 512) _ v25 v28 _ _ _ _).trans
    (congrArg (fun x => dense x v25 (biasRow v28))
      ((layer_of_matmul (A := 512) (K := 2048) (N := 1024) _ v15 v18 _ _ _ _).trans
        (congrArg (fun x => dense x v15 (biasRow v18))
          (layer_of_matmul (A := 512) (K := 1024) (N := 2048) v3 v5 v8 _ _ _ _))))

/-- The domain block: two layers of the shared block. -/
theorem pay4_eq (v33 : FVec Ideal S512x512 .f32) (v36 : Vec Ideal S512x512 .bf16) (v39 : Vec Ideal S1x512 .f32)
    (v46 : Vec Ideal S512x256 .bf16) (v49 : Vec Ideal S1x256 .f32) :
    k0_pay4 (F := Ideal) v33 v36 v39 v46 v49 = tower2 v33 v36 (biasRow v39) v46 (biasRow v49) := by
  unfold k0_pay4 tower2
  exact (layer_of_matmul (A := 512) (K := 512) (N := 256) _ v46 v49 _ _ _ _).trans
    (congrArg (fun x => dense x v46 (biasRow v49))
      (layer_of_matmul (A := 512) (K := 512) (N := 512) v33 v36 v39 _ _ _ _))

end Cert.KernelIdeal.Pay

end
-- ==== Proof.KernelHost.lean ====
/-
  What the region finds in each window's array.

  Before the one region the host narrows the six weight tables to the matrix unit's input format (no change of value on
  the extended reals), re-lays each bias `[N]` as a row `[1, N]` and the head bias `[8]` as a column `[8, 1]` (a
  shape cast keeps the row-major order, so entry `(0, j)` of the row and entry `(k, 0)` of the column are entries
  `j` and `k` of the vector), and clips the domain ids into `[0, 7]` before re-laying them as a column
  `[16384, 1]`: an id word already in `[0, 8)` is its own clip.
-/
import proofs.«409852_j86955907875178_3_alg».proof.Proof.Gen.KernelIdeal.Value
import proofs.«409852_j86955907875178_3_alg».proof.Proof.KernelPayloads
import Idealize.ShloMosaic.Lib.StableHlo.Run

noncomputable section

open scoped BigOperators

namespace Cert.KernelIdeal.Host

open Cert.KernelIdeal Cert.KernelIdeal.Gen Cert.KernelIdeal.Pay Cert.WideDeep
open Idealize.ShloMosaic Idealize.ShloMosaic.TcCoe Idealize.SL.Sem Idealize.ShloMosaic.ValueIdx Idealize.ShloMosaic.StableHlo

/-! ## Shape casts between a vector and its row or column -/

/-- A `[N]` vector cast to a `[1, N]` row, read back as the vector. -/
theorem biasRow_shapeCast {N : ℕ} (b : (⟨1, ![N]⟩ : Shape).Idx → EReal)
    (h : (⟨1, ![N]⟩ : Shape).ShapeCasts ⟨2, ![1, N]⟩) : biasRow (shapeCast ⟨2, ![1, N]⟩ b h) = b := by
  funext j
  obtain ⟨q, rfl⟩ : ∃ q : Fin N, j = ix1 q := ⟨j 0, eq_ix1 j⟩
  refine shapeCast_apply b h (ix2 (0 : Fin 1) q) (ix1 q) ?_
  rw [Shape.rowMajor_val_one, Shape.rowMajor_val_two]
  show q.val = 0 * N + q.val
  omega

/-- A `[D]` vector cast to a `[D, 1]` column, read at `(k, 0)`. -/
theorem shapeCast_col_apply {α : Type} {D : ℕ} (b : (⟨1, ![D]⟩ : Shape).Idx → α)
    (h : (⟨1, ![D]⟩ : Shape).ShapeCasts ⟨2, ![D, 1]⟩) (k : Fin D) :
    shapeCast ⟨2, ![D, 1]⟩ b h (ix2 k (0 : Fin 1)) = b (ix1 k) := by
  refine shapeCast_apply b h (ix2 k (0 : Fin 1)) (ix1 k) ?_
  rw [Shape.rowMajor_val_one, Shape.rowMajor_val_two]
  show k.val = k.val * 1 + 0
  omega

/-- A `[D]` vector cast to a `[D, 1]` column, read back as the vector. -/
theorem colVec_shapeCast {D : ℕ} (b : (⟨1, ![D]⟩ : Shape).Idx → EReal)
    (h : (⟨1, ![D]⟩ : Shape).ShapeCasts ⟨2, ![D, 1]⟩) : colVec (shapeCast ⟨2, ![D, 1]⟩ b h) = b := by
  funext j
  obtain ⟨q, rfl⟩ : ∃ q : Fin D, j = ix1 q := ⟨j 0, eq_ix1 j⟩
  exact shapeCast_col_apply b h q

/-! ## The clip of an id word -/

/-- A word in `[0, 8)` is its own clip into `[0, 7]`. -/
theorem clip_of_range (w : BitVec 32) (h0 : 0 ≤ w.toInt) (h8 : w.toInt < 8) :
    IntOp.minsi 7#32 (IntOp.maxsi 0#32 w) = w := by
  have e0 : (0#32 : BitVec 32).toInt = 0 := by decide
  have e7 : (7#32 : BitVec 32).toInt = 7 := by decide
  have hmax : IntOp.maxsi 0#32 w = w := by
    unfold IntOp.maxsi
    rw [if_neg]
    rw [BitVec.slt_iff_toInt_lt, e0]
    omega
  rw [hmax]
  unfold IntOp.minsi
  rw [if_neg]
  rw [BitVec.slt_iff_toInt_lt, e7]
  omega

variable (m : (ℓ : Loc nD τ sig) → Buf (Elt Ideal) ℓ)

/-! ## The windows' arrays at region entry -/

/-- The id column: the ids clipped into `[0, 7]`, re-laid as a column. -/
theorem V_ids (c : Dev nD) : (V m c main_v1 : S16384x1.Idx → BitVec 32) = shapeCast S16384x1 (minsi (broadcastInDim S16384 ![] bcast_S_S16384 (constantI S_ 32 7#32)) (maxsi (broadcastInDim S16384 ![] bcast_S_S16384 (constantI S_ 32 0#32)) (m ((c : Thread nD τ).loc main_arg2)))) shapeCasts_S16384_S16384x1 := by
  dsimp only [V]
  simp only [hostOps0, hostOps0_1, hostOps0_2, List.flatten_cons, List.flatten_nil, List.append_nil, List.cons_append, List.nil_append]
  after_results
  rfl
/-- The first weight table, narrowed: the same extended reals. -/
theorem V_W1 (c : Dev nD) : (V m c main_v2 : S1024x2048.Idx → EReal) = m ((c : Thread nD τ).loc main_arg3) := by
  dsimp only [V]
  simp only [hostOps0, hostOps0_1, hostOps0_2, List.flatten_cons, List.flatten_nil, List.append_nil, List.cons_append, List.nil_append]
  after_results
  rfl
/-- The second weight table, narrowed: the same extended reals. -/
theorem V_W2 (c : Dev nD) : (V m c main_v3 : S2048x1024.Idx → EReal) = m ((c : Thread nD τ).loc main_arg5) := by
  dsimp only [V]
  simp only [hostOps0, hostOps0_1, hostOps0_2, List.flatten_cons, List.flatten_nil, List.append_nil, List.cons_append, List.nil_append]
  after_results
  rfl
/-- The third weight table, narrowed: the same extended reals. -/
theorem V_W3 (c : Dev nD) : (V m c main_v4 : S1024x512.Idx → EReal) = m ((c : Thread nD τ).loc main_arg7) := by
  dsimp only [V]
  simp only [hostOps0, hostOps0_1, hostOps0_2, List.flatten_cons, List.flatten_nil, List.append_nil, List.cons_append, List.nil_append]
  after_results
  rfl
/-- The fourth weight table, narrowed: the same extended reals. -/
theorem V_Wd1 (c : Dev nD) : (V m c main_v5 : S512x512.Idx → EReal) = m ((c : Thread nD τ).loc main_arg9) := by
  dsimp only [V]
  simp only [hostOps0, hostOps0_1, hostOps0_2, List.flatten_cons, List.flatten_nil, List.append_nil, List.cons_append, List.nil_append]
  after_results
  rfl
/-- The fifth weight table, narrowed: the same extended reals. -/
theorem V_Wd2 (c : Dev nD) : (V m c main_v6 : S512x256.Idx → EReal) = m ((c : Thread nD τ).loc main_arg11) := by
  dsimp only [V]
  simp only [hostOps0, hostOps0_1, hostOps0_2, List.flatten_cons, List.flatten_nil, List.append_nil, List.cons_append, List.nil_append]
  after_results
  rfl
/-- The head weight table, narrowed: the same extended reals. -/
theorem V_Wh (c : Dev nD) : (V m c main_v7 : S8x256.Idx → EReal) = m ((c : Thread nD τ).loc main_arg13) := by
  dsimp only [V]
  simp only [hostOps0, hostOps0_1, hostOps0_2, List.flatten_cons, List.flatten_nil, List.append_nil, List.cons_append, List.nil_append]
  after_results
  rfl
/-- A bias re-laid as a row. -/
theorem V_b1_cast (c : Dev nD) : (V m c main_v10 : S1x2048.Idx → EReal) = shapeCast S1x2048 (m ((c : Thread nD τ).loc main_arg4)) shapeCasts_S2048_S1x2048 := by
  dsimp only [V]
  simp only [hostOps0, hostOps0_1, hostOps0_2, List.flatten_cons, List.flatten_nil, List.append_nil, List.cons_append, List.nil_append]
  after_results
  rfl
/-- That row read back is the bias. -/
theorem V_b1 (c : Dev nD) : biasRow (V m c main_v10 : S1x2048.Idx → EReal) = m ((c : Thread nD τ).loc main_arg4) := by
  rw [V_b1_cast]; exact biasRow_shapeCast _ _
/-- A bias re-laid as a row. -/
theorem V_b2_cast (c : Dev nD) : (V m c main_v11 : S1x1024.Idx → EReal) = shapeCast S1x1024 (m ((c : Thread nD τ).loc main_arg6)) shapeCasts_S1024_S1x1024 := by
  dsimp only [V]
  simp only [hostOps0, hostOps0_1, hostOps0_2, List.flatten_cons, List.flatten_nil, List.append_nil, List.cons_append, List.nil_append]
  after_results
  rfl
/-- That row read back is the bias. -/
theorem V_b2 (c : Dev nD) : biasRow (V m c main_v11 : S1x1024.Idx → EReal) = m ((c : Thread nD τ).loc main_arg6) := by
  rw [V_b2_cast]; exact biasRow_shapeCast _ _
/-- A bias re-laid as a row. -/
theorem V_b3_cast (c : Dev nD) : (V m c main_v12 : S1x512.Idx → EReal) = shapeCast S1x512 (m ((c : Thread nD τ).loc main_arg8)) shapeCasts_S512_S1x512 := by
  dsimp only [V]
  simp only [hostOps0, hostOps0_1, hostOps0_2, List.flatten_cons, List.flatten_nil, List.append_nil, List.cons_append, List.nil_append]
  after_results
  rfl
/-- That row read back is the bias. -/
theorem V_b3 (c : Dev nD) : biasRow (V m c main_v12 : S1x512.Idx → EReal) = m ((c : Thread nD τ).loc main_arg8) := by
  rw [V_b3_cast]; exact biasRow_shapeCast _ _
/-- A bias re-laid as a row. -/
theorem V_bd1_cast (c : Dev nD) : (V m c main_v13 : S1x512.Idx → EReal) = shapeCast S1x512 (m ((c : Thread nD τ).loc main_arg10)) shapeCasts_S512_S1x512 := by
  dsimp only [V]
  simp only [hostOps0, hostOps0_1, hostOps0_2, List.flatten_cons, List.flatten_nil, List.append_nil, List.cons_append, List.nil_append]
  after_results
  rfl
/-- That row read back is the bias. -/
theorem V_bd1 (c : Dev nD) : biasRow (V m c main_v13 : S1x512.Idx → EReal) = m ((c : Thread nD τ).loc main_arg10) := by
  rw [V_bd1_cast]; exact biasRow_shapeCast _ _
/-- A bias re-laid as a row. -/
theorem V_bd2_cast (c : Dev nD) : (V m c main_v14 : S1x256.Idx → EReal) = shapeCast S1x256 (m ((c : Thread nD τ).loc main_arg12)) shapeCasts_S256_S1x256 := by
  dsimp only [V]
  simp only [hostOps0, hostOps0_1, hostOps0_2, List.flatten_cons, List.flatten_nil, List.append_nil, List.cons_append, List.nil_append]
  after_results
  rfl
/-- That row read back is the bias. -/
theorem V_bd2 (c : Dev nD) : biasRow (V m c main_v14 : S1x256.Idx → EReal) = m ((c : Thread nD τ).loc main_arg12) := by
  rw [V_bd2_cast]; exact biasRow_shapeCast _ _
/-- The head bias re-laid as a column and narrowed. -/
theorem V_bh_cast (c : Dev nD) : (V m c main_v9 : S8x1.Idx → EReal) = shapeCast S8x1 (m ((c : Thread nD τ).loc main_arg14)) shapeCasts_S8_S8x1 := by
  dsimp only [V]
  simp only [hostOps0, hostOps0_1, hostOps0_2, List.flatten_cons, List.flatten_nil, List.append_nil, List.cons_append, List.nil_append]
  after_results
  rfl
/-- That column read back is the head bias. -/
theorem V_bh (c : Dev nD) : colVec (V m c main_v9 : S8x1.Idx → EReal) = m ((c : Thread nD τ).loc main_arg14) := by
  rw [V_bh_cast]; exact colVec_shapeCast _ _

/-- The id column at row `r`: the clip of id `r`. -/
theorem V_ids_apply (c : Dev nD) (r : Fin 16384) :
    (V m c main_v1 : S16384x1.Idx → BitVec 32) (ix2 r (0 : Fin 1))
      = IntOp.minsi 7#32 (IntOp.maxsi 0#32 ((m ((c : Thread nD τ).loc main_arg2) : S16384.Idx → BitVec 32) (ix1 r))) := by
  rw [V_ids]
  exact shapeCast_col_apply _ _ r

/-- Where every id lies in `[0, 8)` the id column is the ids. -/
theorem V_ids_of_range (c : Dev nD)
    (hr : ∀ r : Fin 16384, 0 ≤ ((m ((c : Thread nD τ).loc main_arg2) : S16384.Idx → BitVec 32) (ix1 r)).toInt
      ∧ ((m ((c : Thread nD τ).loc main_arg2) : S16384.Idx → BitVec 32) (ix1 r)).toInt < 8) (r : Fin 16384) :
    (V m c main_v1 : S16384x1.Idx → BitVec 32) (ix2 r (0 : Fin 1)) = (m ((c : Thread nD τ).loc main_arg2) : S16384.Idx → BitVec 32) (ix1 r) := by
  rw [V_ids_apply]
  exact clip_of_range _ (hr r).1 (hr r).2

end Cert.KernelIdeal.Host

end
-- ==== Proof.KernelBlocks.lean ====
/-
  Each input window's block at a grid point, as a function of the arrays the region finds.

  The grid has 32 points. The three batch windows (wide features, deep features, id column) move with the point: at point
  `t` their block is rows `512 t, …, 512 t + 511` of the array (a block's coordinate on an axis is the block index times
  the block's extent plus the coordinate inside the block, and the block index is `(t, 0)`). The twelve weight and bias
  windows stay at block `(0, 0)`, which is the whole array.
-/
import proofs.«409852_j86955907875178_3_alg».proof.Proof.KernelHost

noncomputable section

open scoped BigOperators

namespace Cert.KernelIdeal.Blocks

open Cert.KernelIdeal Cert.KernelIdeal.Gen Cert.KernelIdeal.Pay Cert.KernelIdeal.Host Cert.WideDeep
open Idealize.ShloMosaic Idealize.ShloMosaic.TcCoe Idealize.SL.Sem Idealize.ShloMosaic.ValueIdx

/-- A grid point is one of 32. -/
theorem point_lt (t : Fin cfg0.N) : t.val < 32 := by
  have h : t.val < cfg0.N := t.isLt
  have e : cfg0.N = 32 := N_0
  omega

/-- The rows of point `t`'s block lie inside the 16384 rows. -/
theorem rows_inb (t : Fin cfg0.N) : 512 * t.val + 512 ≤ 16384 := by
  have := point_lt t
  omega

/-- The batch windows' block index at point `t` is `(t, 0)`; so is each output window's. Decided over the grid. -/
theorem moving_idx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_15.index t (0 : Fin 2) = t.val ∧ win0_15.index t (1 : Fin 2) = 0
    ∧ win0_16.index t (0 : Fin 2) = t.val ∧ win0_16.index t (1 : Fin 2) = 0
    ∧ win0_17.index t (0 : Fin 2) = t.val ∧ win0_17.index t (1 : Fin 2) = 0 :=
  (by decide +kernel : ∀ t : Fin grid0.N, _)

/-- The weight and bias windows' block index is `(0, 0)` at every point. Decided over the grid. -/
theorem fixed_idx : ∀ t : Fin cfg0.N,
    (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0)
    ∧ (win0_14.index t (0 : Fin 2) = 0 ∧ win0_14.index t (1 : Fin 2) = 0) :=
  (by decide +kernel : ∀ t : Fin grid0.N, _)

variable (m : (ℓ : Loc nD τ sig) → Buf (Elt Ideal) ℓ)

/-! ## The batch windows: a block of rows -/

/-- Window 0's block at point `t`: rows `512 t …` of its array. -/
theorem blk_wide (c : Dev nD) (t : Fin cfg0.N) :
    (iblk m c 0 t : S512x256.Idx → EReal) = rows (512 * t.val) (rows_inb t) (V m c main_arg0 : S16384x256.Idx → EReal) := by
  obtain ⟨h0, h1, h2, h3, h4, h5, -⟩ := moving_idx t
  funext y
  unfold iblk
  rw [View.read_apply]
  show V m c main_arg0 _ = V m c main_arg0 (ix2 (shiftRow (512 * t.val) (rows_inb t) (y 0)) (y 1))
  refine congrArg _ (funext fun a => Fin.ext ?_)
  match a with
  | ⟨0, _⟩ => show win0_0.index t (0 : Fin 2) * 512 + 1 * (y 0).val = 512 * t.val + (y 0).val; omega
  | ⟨1, _⟩ => show win0_0.index t (1 : Fin 2) * 256 + 1 * (y 1).val = (y 1).val; omega
/-- Window 1's block at point `t`: rows `512 t …` of its array. -/
theorem blk_deep (c : Dev nD) (t : Fin cfg0.N) :
    (iblk m c 1 t : S512x1024.Idx → EReal) = rows (512 * t.val) (rows_inb t) (V m c main_arg1 : S16384x1024.Idx → EReal) := by
  obtain ⟨h0, h1, h2, h3, h4, h5, -⟩ := moving_idx t
  funext y
  unfold iblk
  rw [View.read_apply]
  show V m c main_arg1 _ = V m c main_arg1 (ix2 (shiftRow (512 * t.val) (rows_inb t) (y 0)) (y 1))
  refine congrArg _ (funext fun a => Fin.ext ?_)
  match a with
  | ⟨0, _⟩ => show win0_1.index t (0 : Fin 2) * 512 + 1 * (y 0).val = 512 * t.val + (y 0).val; omega
  | ⟨1, _⟩ => show win0_1.index t (1 : Fin 2) * 1024 + 1 * (y 1).val = (y 1).val; omega
/-- Window 2's block at point `t`: rows `512 t …` of its array. -/
theorem blk_ids (c : Dev nD) (t : Fin cfg0.N) :
    (iblk m c 2 t : S512x1.Idx → BitVec 32) = rows (512 * t.val) (rows_inb t) (V m c main_v1 : S16384x1.Idx → BitVec 32) := by
  obtain ⟨h0, h1, h2, h3, h4, h5, -⟩ := moving_idx t
  funext y
  unfold iblk
  rw [View.read_apply]
  show V m c main_v1 _ = V m c main_v1 (ix2 (shiftRow (512 * t.val) (rows_inb t) (y 0)) (y 1))
  refine congrArg _ (funext fun a => Fin.ext ?_)
  match a with
  | ⟨0, _⟩ => show win0_2.index t (0 : Fin 2) * 512 + 1 * (y 0).val = 512 * t.val + (y 0).val; omega
  | ⟨1, _⟩ => show win0_2.index t (1 : Fin 2) * 1 + 1 * (y 1).val = (y 1).val; omega

/-! ## The weight and bias windows: the whole array -/

/-- Window 3's block at every point is its whole array. -/
theorem blk_3 (c : Dev nD) (t : Fin cfg0.N) : (iblk m c 3 t : S1024x2048.Idx → EReal) = V m c main_v2 := by
  obtain ⟨⟨h0, h1⟩, -, -, -, -, -, -, -, -, -, -, -⟩ := fixed_idx t
  funext y
  unfold iblk
  rw [View.read_apply]
  show V m c main_v2 _ = V m c main_v2 y
  refine congrArg _ (funext fun a => Fin.ext ?_)
  match a with
  | ⟨0, _⟩ => show win0_3.index t (0 : Fin 2) * 1024 + 1 * (y 0).val = (y 0).val; omega
  | ⟨1, _⟩ => show win0_3.index t (1 : Fin 2) * 2048 + 1 * (y 1).val = (y 1).val; omega
/-- Window 4's block at every point is its whole array. -/
theorem blk_4 (c : Dev nD) (t : Fin cfg0.N) : (iblk m c 4 t : S1x2048.Idx → EReal) = V m c main_v10 := by
  obtain ⟨-, ⟨h0, h1⟩, -, -, -, -, -, -, -, -, -, -⟩ := fixed_idx t
  funext y
  unfold iblk
  rw [View.read_apply]
  show V m c main_v10 _ = V m c main_v10 y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 2048 + 1 * (y 1).val = (y 1).val; omega
/-- Window 5's block at every point is its whole array. -/
theorem blk_5 (c : Dev nD) (t : Fin cfg0.N) : (iblk m c 5 t : S2048x1024.Idx → EReal) = V m c main_v3 := by
  obtain ⟨-, -, ⟨h0, h1⟩, -, -, -, -, -, -, -, -, -⟩ := fixed_idx t
  funext y
  unfold iblk
  rw [View.read_apply]
  show V m c main_v3 _ = V m c main_v3 y
  refine congrArg _ (funext fun a => Fin.ext ?_)
  match a with
  | ⟨0, _⟩ => show win0_5.index t (0 : Fin 2) * 2048 + 1 * (y 0).val = (y 0).val; omega
  | ⟨1, _⟩ => show win0_5.index t (1 : Fin 2) * 1024 + 1 * (y 1).val = (y 1).val; omega
/-- Window 6's block at every point is its whole array. -/
theorem blk_6 (c : Dev nD) (t : Fin cfg0.N) : (iblk m c 6 t : S1x1024.Idx → EReal) = V m c main_v11 := by
  obtain ⟨-, -, -, ⟨h0, h1⟩, -, -, -, -, -, -, -, -⟩ := fixed_idx t
  funext y
  unfold iblk
  rw [View.read_apply]
  show V m c main_v11 _ = V m c main_v11 y
  refine congrArg _ (funext fun a => Fin.ext ?_)
  match a with
  | ⟨0, _⟩ => show win0_6.index t (0 : Fin 2) * 1 + 1 * (y 0).val = (y 0).val; omega
  | ⟨1, _⟩ => show win0_6.index t (1 : Fin 2) * 1024 + 1 * (y 1).val = (y 1).val; omega
/-- Window 7's block at every point is its whole array. -/
theorem blk_7 (c : Dev nD) (t : Fin cfg0.N) : (iblk m c 7 t : S1024x512.Idx → EReal) = V m c main_v4 := by
  obtain ⟨-, -, -, -, ⟨h0, h1⟩, -, -, -, -, -, -, -⟩ := fixed_idx t
  funext y
  unfold iblk
  rw [View.read_apply]
  show V m c main_v4 _ = V m c main_v4 y
  refine congrArg _ (funext fun a => Fin.ext ?_)
  match a with
  | ⟨0, _⟩ => show win0_7.index t (0 : Fin 2) * 1024 + 1 * (y 0).val = (y 0).val; omega
  | ⟨1, _⟩ => show win0_7.index t (1 : Fin 2) * 512 + 1 * (y 1).val = (y 1).val; omega
/-- Window 8's block at every point is its whole array. -/
theorem blk_8 (c : Dev nD) (t : Fin cfg0.N) : (iblk m c 8 t : S1x512.Idx → EReal) = V m c main_v12 := by
  obtain ⟨-, -, -, -, -, ⟨h0, h1⟩, -, -, -, -, -, -⟩ := fixed_idx t
  funext y
  unfold iblk
  rw [View.read_apply]
  show V m c main_v12 _ = V m c main_v12 y
  refine congrArg _ (funext fun a => Fin.ext ?_)
  match a with
  | ⟨0, _⟩ => show win0_8.index t (0 : Fin 2) * 1 + 1 * (y 0).val = (y 0).val; omega
  | ⟨1, _⟩ => show win0_8.index t (1 : Fin 2) * 512 + 1 * (y 1).val = (y 1).val; omega
/-- Window 9's block at every point is its whole array. -/
theorem blk_9 (c : Dev nD) (t : Fin cfg0.N) : (iblk m c 9 t : S512x512.Idx → EReal) = V m c main_v5 := by
  obtain ⟨-, -, -, -, -, -, ⟨h0, h1⟩, -, -, -, -, -⟩ := fixed_idx t
  funext y
  unfold iblk
  rw [View.read_apply]
  show V m c main_v5 _ = V m c main_v5 y
  refine congrArg _ (funext fun a => Fin.ext ?_)
  match a with
  | ⟨0, _⟩ => show win0_9.index t (0 : Fin 2) * 512 + 1 * (y 0).val = (y 0).val; omega
  | ⟨1, _⟩ => show win0_9.index t (1 : Fin 2) * 512 + 1 * (y 1).val = (y 1).val; omega
/-- Window 10's block at every point is its whole array. -/
theorem blk_10 (c : Dev nD) (t : Fin cfg0.N) : (iblk m c 10 t : S1x512.Idx → EReal) = V m c main_v13 := by
  obtain ⟨-, -, -, -, -, -, -, ⟨h0, h1⟩, -, -, -, -⟩ := fixed_idx t
  funext y
  unfold iblk
  rw [View.read_apply]
  show V m c main_v13 _ = V m c main_v13 y
  refine congrArg _ (funext fun a => Fin.ext ?_)
  match a with
  | ⟨0, _⟩ => show win0_10.index t (0 : Fin 2) * 1 + 1 * (y 0).val = (y 0).val; omega
  | ⟨1, _⟩ => show win0_10.index t (1 : Fin 2) * 512 + 1 * (y 1).val = (y 1).val; omega
/-- Window 11's block at every point is its whole array. -/
theorem blk_11 (c : Dev nD) (t : Fin cfg0.N) : (iblk m c 11 t : S512x256.Idx → EReal) = V m c main_v6 := by
  obtain ⟨-, -, -, -, -, -, -, -, ⟨h0, h1⟩, -, -, -⟩ := fixed_idx t
  funext y
  unfold iblk
  rw [View.read_apply]
  show V m c main_v6 _ = V m c main_v6 y
  refine congrArg _ (funext fun a => Fin.ext ?_)
  match a with
  | ⟨0, _⟩ => show win0_11.index t (0 : Fin 2) * 512 + 1 * (y 0).val = (y 0).val; omega
  | ⟨1, _⟩ => show win0_11.index t (1 : Fin 2) * 256 + 1 * (y 1).val = (y 1).val; omega
/-- Window 12's block at every point is its whole array. -/
theorem blk_12 (c : Dev nD) (t : Fin cfg0.N) : (iblk m c 12 t : S1x256.Idx → EReal) = V m c main_v14 := by
  obtain ⟨-, -, -, -, -, -, -, -, -, ⟨h0, h1⟩, -, -⟩ := fixed_idx t
  funext y
  unfold iblk
  rw [View.read_apply]
  show V m c main_v14 _ = V m c main_v14 y
  refine congrArg _ (funext fun a => Fin.ext ?_)
  match a with
  | ⟨0, _⟩ => show win0_12.index t (0 : Fin 2) * 1 + 1 * (y 0).val = (y 0).val; omega
  | ⟨1, _⟩ => show win0_12.index t (1 : Fin 2) * 256 + 1 * (y 1).val = (y 1).val; omega
/-- Window 13's block at every point is its whole array. -/
theorem blk_13 (c : Dev nD) (t : Fin cfg0.N) : (iblk m c 13 t : S8x256.Idx → EReal) = V m c main_v7 := by
  obtain ⟨-, -, -, -, -, -, -, -, -, -, ⟨h0, h1⟩, -⟩ := fixed_idx t
  funext y
  unfold iblk
  rw [View.read_apply]
  show V m c main_v7 _ = V m c main_v7 y
  refine congrArg _ (funext fun a => Fin.ext ?_)
  match a with
  | ⟨0, _⟩ => show win0_13.index t (0 : Fin 2) * 8 + 1 * (y 0).val = (y 0).val; omega
  | ⟨1, _⟩ => show win0_13.index t (1 : Fin 2) * 256 + 1 * (y 1).val = (y 1).val; omega
/-- Window 14's block at every point is its whole array. -/
theorem blk_14 (c : Dev nD) (t : Fin cfg0.N) : (iblk m c 14 t : S8x1.Idx → EReal) = V m c main_v9 := by
  obtain ⟨-, -, -, -, -, -, -, -, -, -, -, ⟨h0, h1⟩⟩ := fixed_idx t
  funext y
  unfold iblk
  rw [View.read_apply]
  show V m c main_v9 _ = V m c main_v9 y
  refine congrArg _ (funext fun a => Fin.ext ?_)
  match a with
  | ⟨0, _⟩ => show win0_14.index t (0 : Fin 2) * 8 + 1 * (y 0).val = (y 0).val; omega
  | ⟨1, _⟩ => show win0_14.index t (1 : Fin 2) * 1 + 1 * (y 1).val = (y 1).val; omega

end Cert.KernelIdeal.Blocks

end
-- ==== Proof.KernelScore.lean ====
/-
  The kernel body's score block as the routed score of the loaded blocks.

  The one-hot row `[id = 0], …, [id = 7]` of a row's id word, multiplied into the head table, picks the head row
  `id`, and multiplied into the head bias column picks the bias `id`: all but one term of each eight-term sum is
  `0 * x = 0` and the remaining one is `1 * x = x`, which hold of every extended real, infinite ones included.
  What is left is the row sum of the wide block, plus the inner product of the domain row with that head row plus that
  bias, under the logistic function.

  The steps, in the order of the file:
  * a sum along the lanes of a `[512, 256]` block, read at row `p`, is `∑ k, x (p, k)`, and recasting the `[512]` result
    as a `[512, 1]` column moves nothing: the column's entry `(p, 0)` is the vector's entry `p`;
  * entry `(p, k)` of the one-hot block is the truth value of `id p = k` as words, widened to 32 bits, read as a signed
    integer and taken as a real: `1` or `0`. The narrowing to the shorter format changes no value here;
  * a 32-bit word whose signed reading lies in `[0, 8)` is the word of that number `c`, the clamp into the eight heads
    leaves `c` alone, and two numbers below eight are equal exactly when their words are: so `id p = k` holds exactly
    at `k = headOf (id p)`;
  * hence each eight-term product sum collapses to its one surviving term, and the block is `score` entry by entry.
-/
import proofs.«409852_j86955907875178_3_alg».proof.Proof.KernelPayloads

noncomputable section

open scoped BigOperators

namespace Cert.KernelIdeal.Pay

open Cert.KernelIdeal Cert.KernelIdeal.Gen Cert.WideDeep Idealize.ShloMosaic Idealize.ShloMosaic.ValueIdx

/-! ## Row sums and the column recast -/

/-- The sum along axis 1 of a `[512, 256]` block from a zero accumulator, at row `p`: `∑ k, src (p, k)`. The index the
    general statement inserts `k` into is `(p, k)`, coordinate by coordinate. -/
theorem laneSum_apply (src : FVec Ideal S512x256 .f32) (hacc : (0x00000000#32 : BitVec 32) = 0x00000000#32) (p : Fin 512) :
    multiReduction .add [1] S512 src 0x00000000#32 reduces_S512x256_S512 (.inl rfl) hacc (ix1 p)
      = ∑ k : Fin 256, src (ix2 p k) :=
  (Ideal.multiReduction_add_single src 0x00000000#32 reduces_S512x256_S512 (.inl rfl) hacc (ix1 p)).trans
    (Finset.sum_congr rfl fun k _ => congrArg src (funext fun a => Fin.ext (by
      match a with
      | ⟨0, _⟩ => rfl
      | ⟨1, _⟩ => rfl)))

/-- A `[512]` vector recast as a `[512, 1]` column, at `(p, q)`: the vector at `p`. Both sit at row-major position
    `p`, since `p * 1 + q = p` for the one possible `q = 0`. -/
theorem column_apply {α : Type} (v : S512.Idx → α) (p : Fin 512) (q : Fin 1) :
    shapeCast S512x1 v shapeCasts_S512_S512x1 (ix2 p q) = v (ix1 p) :=
  shapeCast_apply v shapeCasts_S512_S512x1 (ix2 p q) (ix1 p) (by
    rw [Shape.rowMajor_val_one, Shape.rowMajor_val_two]
    show p.val = p.val * 1 + q.val
    have := q.isLt
    omega)

/-! ## The one-hot block, entry by entry -/

/-- The id column broadcast along the eight lanes, at `(p, k)`: row `p`'s id word, whatever the lane. -/
theorem idLanes_apply (v56 : IVec S512x1 32) (p : Fin 512) (k : Fin 8) :
    broadcastTo S512x8 (shapeCast S512x1 v56 shapeCasts_S512x1_S512x1) broadcasts_S512x1_S512x8 (ix2 p k)
      = v56 (ix2 p (0 : Fin 1)) := by
  rw [shapeCast_self]
  refine broadcastTo_apply v56 broadcasts_S512x1_S512x8 (ix2 p k) (ix2 p (0 : Fin 1)) (fun a => ?_)
  match a with
  | ⟨0, _⟩ => rfl
  | ⟨1, _⟩ => rfl

/-- The lane number along axis 1, at `(p, k)`: the word `k` (the count starts from `0 * 8 + k`). -/
theorem lane_apply (p : Fin 512) (k : Fin 8) :
    iota .tc S512x8 32 [1] iota_S512x8_d1_w32 (ix2 p k) = BitVec.ofNat 32 k.val := by
  show BitVec.ofNat 32 (0 * 8 + k.val) = BitVec.ofNat 32 k.val
  rw [Nat.zero_mul, Nat.zero_add]

/-- Entry `(p, k)` of the one-hot block before any arithmetic on the words: the truth value of `id p = k`, widened
    to 32 bits, read signed, as an extended real. -/
theorem oneHot_raw (v56 : IVec S512x1 32) (p : Fin 512) (k : Fin 8) :
    k0_pay5 (F := Ideal) v56 (ix2 p k)
      = ((((BitVec.ofBool (v56 (ix2 p (0 : Fin 1)) == BitVec.ofNat 32 k.val)).setWidth 32).toInt : ℝ) : EReal) := by
  unfold k0_pay5
  show ((((BitVec.ofBool (broadcastTo S512x8 (shapeCast S512x1 v56 shapeCasts_S512x1_S512x1) broadcasts_S512x1_S512x8 (ix2 p k)
      == iota .tc S512x8 32 [1] iota_S512x8_d1_w32 (ix2 p k))).setWidth 32).toInt : ℝ) : EReal) = _
  rw [idLanes_apply, lane_apply]

/-! ## Id words in `[0, 8)` -/

/-- A 32-bit word whose signed reading lies in `[0, 8)` has that number as its unsigned reading too: the signed reading
    is the unsigned one, less `2 ^ 32` when the top bit is set, and the latter is negative. -/
theorem toNat_of_small (w : BitVec 32) (h0 : 0 ≤ w.toInt) (h8 : w.toInt < 8) : w.toNat = w.toInt.toNat := by
  have h := BitVec.toInt_eq_toNat_cond w
  have hlt := w.isLt
  split at h <;> omega

/-- The head such a word routes to is the number the word spells: clamping a number below eight into `[0, 7]` leaves it. -/
theorem headOf_val (w : BitVec 32) (h0 : 0 ≤ w.toInt) (h8 : w.toInt < 8) : (headOf w).val = w.toNat := by
  show min w.toInt.toNat (8 - 1) = w.toNat
  have := toNat_of_small w h0 h8
  omega

/-- The word of a head number `k < 8`, read unsigned, is `k`: no wrap below `2 ^ 32`. -/
theorem toNat_lane (k : Fin 8) : (BitVec.ofNat 32 k.val).toNat = k.val := by
  rw [BitVec.toNat_ofNat]
  have := k.isLt
  omega

/-- The test `word = k` holds exactly at the head the word routes to: words are equal when their unsigned readings are. -/
theorem word_eq_lane_iff (w : BitVec 32) (h0 : 0 ≤ w.toInt) (h8 : w.toInt < 8) (k : Fin 8) :
    w = BitVec.ofNat 32 k.val ↔ k = headOf w := by
  constructor
  · intro he
    refine Fin.ext ?_
    rw [headOf_val w h0 h8, he, toNat_lane]
  · intro hk
    refine BitVec.eq_of_toNat_eq ?_
    rw [toNat_lane, hk, headOf_val w h0 h8]

/-- A true test, widened to 32 bits and read as a signed integer, is the real `1`. -/
theorem flag_true : (((BitVec.ofBool true).setWidth 32).toInt : ℝ) = 1 := by
  have : ((BitVec.ofBool true).setWidth 32).toInt = 1 := by decide
  rw [this, Int.cast_one]

/-- A false test, widened and read the same way, is the real `0`. -/
theorem flag_false : (((BitVec.ofBool false).setWidth 32).toInt : ℝ) = 0 := by
  have : ((BitVec.ofBool false).setWidth 32).toInt = 0 := by decide
  rw [this, Int.cast_zero]

/-- THE ONE-HOT ENTRY: `1` in the lane of the head the row routes to, `0` in the seven others. -/
theorem oneHot_apply (v56 : IVec S512x1 32) (p : Fin 512) (k : Fin 8)
    (h0 : 0 ≤ (v56 (ix2 p (0 : Fin 1))).toInt) (h8 : (v56 (ix2 p (0 : Fin 1))).toInt < 8) :
    k0_pay5 (F := Ideal) v56 (ix2 p k) = if k = headOf (v56 (ix2 p (0 : Fin 1))) then 1 else 0 := by
  rw [oneHot_raw]
  by_cases hk : k = headOf (v56 (ix2 p (0 : Fin 1)))
  · have hb : (v56 (ix2 p (0 : Fin 1)) == BitVec.ofNat 32 k.val) = true :=
      beq_iff_eq.mpr ((word_eq_lane_iff _ h0 h8 k).mpr hk)
    rw [if_pos hk, hb, flag_true, EReal.coe_one]
  · have hb : (v56 (ix2 p (0 : Fin 1)) == BitVec.ofNat 32 k.val) = false :=
      beq_eq_false_iff_ne.mpr fun he => hk ((word_eq_lane_iff _ h0 h8 k).mp he)
    rw [if_neg hk, hb, flag_false, EReal.coe_zero]

/-! ## The two products with the one-hot block -/

/-- The one-hot row times a table with eight rows, at column `j`: the table's entry in the routed head's row. Seven
    terms are `0 * x = 0` and the eighth is `1 * x = x`; both hold of every extended real. -/
theorem pick_apply {N : ℕ} {φ : FTy} (v56 : IVec S512x1 32) (p : Fin 512)
    (h0 : 0 ≤ (v56 (ix2 p (0 : Fin 1))).toInt) (h8 : (v56 (ix2 p (0 : Fin 1))).toInt < 8)
    (r : FVec Ideal ⟨2, ![8, N]⟩ φ) (j : Fin N) :
    (∑ k : Fin 8, k0_pay5 (F := Ideal) v56 (ix2 p k) * r (ix2 k j) : EReal)
      = r (ix2 (headOf (v56 (ix2 p (0 : Fin 1)))) j) := by
  refine (Finset.sum_eq_single (headOf (v56 (ix2 p (0 : Fin 1)))) (fun k _ hk => ?_)
    (fun h => absurd (Finset.mem_univ _) h)).trans ?_
  · rw [oneHot_apply v56 p k h0 h8, if_neg hk, zero_mul]
  · rw [oneHot_apply v56 p _ h0 h8, if_pos rfl, one_mul]

/-- The one-hot block times the head table, at `(p, j)`: entry `j` of the routed head's row. -/
theorem pay6_apply (v56 : IVec S512x1 32) (v64 : Vec Ideal S8x256 .bf16) (p : Fin 512) (j : Fin 256)
    (h0 : 0 ≤ (v56 (ix2 p (0 : Fin 1))).toInt) (h8 : (v56 (ix2 p (0 : Fin 1))).toInt < 8) :
    k0_pay6 (F := Ideal) v56 v64 (ix2 p j) = v64 (ix2 (headOf (v56 (ix2 p (0 : Fin 1)))) j) := by
  unfold k0_pay6
  refine (matmul_plain_apply 512 8 256 none (k0_pay5 (F := Ideal) v56)
    (shapeCast S8x256 v64 shapeCasts_S8x256_S8x256) p j).trans ?_
  rw [shapeCast_self]
  exact pick_apply v56 p h0 h8 v64 j

/-- The one-hot block times the head bias column, at row `p`: the routed head's bias. -/
theorem pay7_apply (v56 : IVec S512x1 32) (v67 : Vec Ideal S8x1 .bf16) (p : Fin 512) (q : Fin 1)
    (h0 : 0 ≤ (v56 (ix2 p (0 : Fin 1))).toInt) (h8 : (v56 (ix2 p (0 : Fin 1))).toInt < 8) :
    k0_pay7 (F := Ideal) v56 v67 (ix2 p q) = v67 (ix2 (headOf (v56 (ix2 p (0 : Fin 1)))) q) := by
  unfold k0_pay7
  refine (matmul_plain_apply 512 8 1 none (k0_pay5 (F := Ideal) v56)
    (shapeCast S8x1 v67 shapeCasts_S8x1_S8x1) p q).trans ?_
  rw [shapeCast_self]
  exact pick_apply v56 p h0 h8 v67 q

/-! ## The score block -/

/-- The score block: for id words in `[0, 8)` the two one-hot products select head row and head bias `id`. At
    entry `(p, 0)` the block is the logistic function of the wide row sum plus the row sum of the products
    `d (p, j) * (head table) (id p, j)` plus the bias `id p`, which is `score` there. -/
theorem pay1_eq (v0 : Vec Ideal S512x256 .f32) (d : FVec Ideal S512x256 .f32) (v56 : IVec S512x1 32)
    (v64 : Vec Ideal S8x256 .bf16) (v67 : Vec Ideal S8x1 .bf16)
    (hr : ∀ p : Fin 512, 0 ≤ (v56 (ix2 p (0 : Fin 1))).toInt ∧ (v56 (ix2 p (0 : Fin 1))).toInt < 8) :
    k0_pay1 (F := Ideal) (k0_pay2 v0) d (k0_pay6 v56 v64) (k0_pay7 v56 v67)
      = score v0 d v64 (colVec v67) (fun p => headOf (v56 (ix2 p (0 : Fin 1)))) := by
  funext i
  obtain ⟨p, q, rfl⟩ : ∃ (p : Fin 512) (q : Fin 1), i = ix2 p q := ⟨i 0, i 1, eq_ix2 i⟩
  obtain rfl : q = 0 := Subsingleton.elim q 0
  rw [score_apply]
  unfold k0_pay1 k0_pay2
  show Ideal.logistic
    (shapeCast S512x1 (multiReduction (F := Ideal) .add [1] S512 v0 0x00000000#32 reduces_S512x256_S512 (.inl rfl) rfl)
        shapeCasts_S512_S512x1 (ix2 p (0 : Fin 1))
      + (shapeCast S512x1 (multiReduction (F := Ideal) .add [1] S512 (mulf d (k0_pay6 v56 v64)) 0x00000000#32
            reduces_S512x256_S512 (.inl rfl) rfl) shapeCasts_S512_S512x1 (ix2 p (0 : Fin 1))
        + k0_pay7 (F := Ideal) v56 v67 (ix2 p (0 : Fin 1)))) = _
  rw [column_apply, column_apply, laneSum_apply, laneSum_apply, pay7_apply v56 v67 p 0 (hr p).1 (hr p).2]
  refine congrArg (fun x => Ideal.logistic ((∑ k : Fin 256, v0 (ix2 p k)) + (x + _))) ?_
  refine Finset.sum_congr rfl fun j _ => ?_
  show d (ix2 p j) * k0_pay6 (F := Ideal) v56 v64 (ix2 p j) = _
  rw [pay6_apply v56 v64 p j (hr p).1 (hr p).2]

end Cert.KernelIdeal.Pay

end
-- ==== Proof.KernelArrays.lean ====
/-
  The three output arrays after the kernel's run, as the model's functions of the argument arrays.

  At grid point `t` the body stores, into the three output blocks, the tower of rows `512 t …` of the deep features,
  the domain tower on top of it, and the routed score of those rows; every layer and the score act row by row, so these
  are rows `512 t …` of the whole-array functions. Point `t` writes its blocks back to rows `512 t …` of the output
  arrays, the 32 blocks cover all 16384 rows (row `r` lies in the block of point `r / 512`), and so after the run each
  output array is its whole-array function. The score needs the id words in `[0, 8)`: there the clipped id column the
  kernel reads is the ids themselves.
-/
import proofs.«409852_j86955907875178_3_alg».proof.Proof.KernelBlocks
import proofs.«409852_j86955907875178_3_alg».proof.Proof.KernelScore

noncomputable section

open scoped BigOperators

namespace Cert.KernelIdeal.Arrays

open Cert.KernelIdeal Cert.KernelIdeal.Gen Cert.KernelIdeal.Value Cert.KernelIdeal.Pay Cert.KernelIdeal.Host
open Cert.KernelIdeal.Blocks Cert.WideDeep
open Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

/-! ## What the body leaves in each output block, over blocks as variables -/

theorem out16_eq (x0 : Vec Ideal S512x256 .f32) (x1 : Vec Ideal S512x1024 .f32) (x2 : Vec Ideal S512x1 .i32) (x3 : Vec Ideal S1024x2048 .bf16) (x4 : Vec Ideal S1x2048 .f32) (x5 : Vec Ideal S2048x1024 .bf16) (x6 : Vec Ideal S1x1024 .f32) (x7 : Vec Ideal S1024x512 .bf16) (x8 : Vec Ideal S1x512 .f32) (x9 : Vec Ideal S512x512 .bf16) (x10 : Vec Ideal S1x512 .f32) (x11 : Vec Ideal S512x256 .bf16) (x12 : Vec Ideal S1x256 .f32) (x13 : Vec Ideal S8x256 .bf16) (x14 : Vec Ideal S8x1 .bf16) :
    out0_16 (F := Ideal) x0 x1 x2 x3 x4 x5 x6 x7 x8 x9 x10 x11 x12 x13 x14 = k0_pay3 x1 x3 x4 x5 x6 x7 x8 := by
  unfold out0_16
  rw [View.canon_unit_zero hz]
  simp only [View.ld_unit_zero (S := S512x256) hz, View.ld_unit_zero (S := S512x1024) hz, View.ld_unit_zero (S := S512x1) hz,
    View.ld_unit_zero (S := S1024x2048) hz, View.ld_unit_zero (S := S1x2048) hz, View.ld_unit_zero (S := S2048x1024) hz,
    View.ld_unit_zero (S := S1x1024) hz, View.ld_unit_zero (S := S1024x512) hz, View.ld_unit_zero (S := S1x512) hz,
    View.ld_unit_zero (S := S512x512) hz, View.ld_unit_zero (S := S1x256) hz, View.ld_unit_zero (S := S8x256) hz,
    View.ld_unit_zero (S := S8x1) hz]

theorem out17_eq (x0 : Vec Ideal S512x256 .f32) (x1 : Vec Ideal S512x1024 .f32) (x2 : Vec Ideal S512x1 .i32) (x3 : Vec Ideal S1024x2048 .bf16) (x4 : Vec Ideal S1x2048 .f32) (x5 : Vec Ideal S2048x1024 .bf16) (x6 : Vec Ideal S1x1024 .f32) (x7 : Vec Ideal S1024x512 .bf16) (x8 : Vec Ideal S1x512 .f32) (x9 : Vec Ideal S512x512 .bf16) (x10 : Vec Ideal S1x512 .f32) (x11 : Vec Ideal S512x256 .bf16) (x12 : Vec Ideal S1x256 .f32) (x13 : Vec Ideal S8x256 .bf16) (x14 : Vec Ideal S8x1 .bf16) :
    out0_17 (F := Ideal) x0 x1 x2 x3 x4 x5 x6 x7 x8 x9 x10 x11 x12 x13 x14 = k0_pay4 (k0_pay3 x1 x3 x4 x5 x6 x7 x8) x9 x10 x11 x12 := by
  unfold out0_17
  rw [View.canon_unit_zero hz]
  simp only [View.ld_unit_zero (S := S512x256) hz, View.ld_unit_zero (S := S512x1024) hz, View.ld_unit_zero (S := S512x1) hz,
    View.ld_unit_zero (S := S1024x2048) hz, View.ld_unit_zero (S := S1x2048) hz, View.ld_unit_zero (S := S2048x1024) hz,
    View.ld_unit_zero (S := S1x1024) hz, View.ld_unit_zero (S := S1024x512) hz, View.ld_unit_zero (S := S1x512) hz,
    View.ld_unit_zero (S := S512x512) hz, View.ld_unit_zero (S := S1x256) hz, View.ld_unit_zero (S := S8x256) hz,
    View.ld_unit_zero (S := S8x1) hz]

theorem out15_eq (x0 : Vec Ideal S512x256 .f32) (x1 : Vec Ideal S512x1024 .f32) (x2 : Vec Ideal S512x1 .i32) (x3 : Vec Ideal S1024x2048 .bf16) (x4 : Vec Ideal S1x2048 .f32) (x5 : Vec Ideal S2048x1024 .bf16) (x6 : Vec Ideal S1x1024 .f32) (x7 : Vec Ideal S1024x512 .bf16) (x8 : Vec Ideal S1x512 .f32) (x9 : Vec Ideal S512x512 .bf16) (x10 : Vec Ideal S1x512 .f32) (x11 : Vec Ideal S512x256 .bf16) (x12 : Vec Ideal S1x256 .f32) (x13 : Vec Ideal S8x256 .bf16) (x14 : Vec Ideal S8x1 .bf16) :
    out0_15 (F := Ideal) x0 x1 x2 x3 x4 x5 x6 x7 x8 x9 x10 x11 x12 x13 x14
      = k0_pay1 (k0_pay2 x0) (k0_pay4 (k0_pay3 x1 x3 x4 x5 x6 x7 x8) x9 x10 x11 x12) (k0_pay6 x2 x13) (k0_pay7 x2 x14) := by
  unfold out0_15
  rw [View.canon_unit_zero hz]
  simp only [View.ld_unit_zero (S := S512x256) hz, View.ld_unit_zero (S := S512x1024) hz, View.ld_unit_zero (S := S512x1) hz,
    View.ld_unit_zero (S := S1024x2048) hz, View.ld_unit_zero (S := S1x2048) hz, View.ld_unit_zero (S := S2048x1024) hz,
    View.ld_unit_zero (S := S1x1024) hz, View.ld_unit_zero (S := S1024x512) hz, View.ld_unit_zero (S := S1x512) hz,
    View.ld_unit_zero (S := S512x512) hz, View.ld_unit_zero (S := S1x256) hz, View.ld_unit_zero (S := S8x256) hz,
    View.ld_unit_zero (S := S8x1) hz]

variable (m : (ℓ : Loc nD τ sig) → Buf (Elt Ideal) ℓ) (ρ : Dev nD → PrngReg)

/-! ## The whole-array functions -/

/-- The shared tower of the deep features. -/
def sharedOf (c : Dev nD) : S16384x512.Idx → EReal :=
  tower3 (m ((c : Thread nD τ).loc main_arg1) : S16384x1024.Idx → EReal) (m ((c : Thread nD τ).loc main_arg3) : S1024x2048.Idx → EReal) (m ((c : Thread nD τ).loc main_arg4) : S2048.Idx → EReal)
    (m ((c : Thread nD τ).loc main_arg5) : S2048x1024.Idx → EReal) (m ((c : Thread nD τ).loc main_arg6) : S1024.Idx → EReal) (m ((c : Thread nD τ).loc main_arg7) : S1024x512.Idx → EReal)
    (m ((c : Thread nD τ).loc main_arg8) : S512.Idx → EReal)

/-- The domain tower on top of it. -/
def domainOf (c : Dev nD) : S16384x256.Idx → EReal :=
  tower2 (sharedOf m c) (m ((c : Thread nD τ).loc main_arg9) : S512x512.Idx → EReal) (m ((c : Thread nD τ).loc main_arg10) : S512.Idx → EReal)
    (m ((c : Thread nD τ).loc main_arg11) : S512x256.Idx → EReal) (m ((c : Thread nD τ).loc main_arg12) : S256.Idx → EReal)

/-- The routed score. -/
def scoreOf (c : Dev nD) : S16384x1.Idx → EReal :=
  score (m ((c : Thread nD τ).loc main_arg0) : S16384x256.Idx → EReal) (domainOf m c) (m ((c : Thread nD τ).loc main_arg13) : S8x256.Idx → EReal)
    (m ((c : Thread nD τ).loc main_arg14) : S8.Idx → EReal) (fun r => headOf ((m ((c : Thread nD τ).loc main_arg2) : S16384.Idx → BitVec 32) (ix1 r)))

/-! ## The body's blocks at a point are rows of those -/

theorem shared_at (c : Dev nD) (t : Fin cfg0.N) :
    k0_pay3 (F := Ideal) (iblk m c 1 t) (iblk m c 3 t) (iblk m c 4 t) (iblk m c 5 t) (iblk m c 6 t) (iblk m c 7 t) (iblk m c 8 t)
      = rows (512 * t.val) (rows_inb t) (sharedOf m c) := by
  refine (pay3_eq _ _ _ _ _ _ _).trans ?_
  rw [blk_deep, blk_3, blk_4, blk_5, blk_6, blk_7, blk_8, V_W1, V_b1, V_W2, V_b2, V_W3, V_b3, V_main_arg1]
  exact tower3_rows _ _ _ _ _ _ _ _ _

theorem domain_at (c : Dev nD) (t : Fin cfg0.N) :
    k0_pay4 (F := Ideal) (k0_pay3 (iblk m c 1 t) (iblk m c 3 t) (iblk m c 4 t) (iblk m c 5 t) (iblk m c 6 t) (iblk m c 7 t) (iblk m c 8 t)) (iblk m c 9 t) (iblk m c 10 t) (iblk m c 11 t) (iblk m c 12 t)
      = rows (512 * t.val) (rows_inb t) (domainOf m c) := by
  refine (pay4_eq _ _ _ _ _).trans ?_
  rw [shared_at, blk_9, blk_10, blk_11, blk_12, V_Wd1, V_bd1, V_Wd2, V_bd2]
  exact tower2_rows _ _ _ _ _ _ _

theorem score_at (c : Dev nD) (t : Fin cfg0.N)
    (hr : ∀ r : Fin 16384, 0 ≤ ((m ((c : Thread nD τ).loc main_arg2) : S16384.Idx → BitVec 32) (ix1 r)).toInt
      ∧ ((m ((c : Thread nD τ).loc main_arg2) : S16384.Idx → BitVec 32) (ix1 r)).toInt < 8) :
    k0_pay1 (F := Ideal) (k0_pay2 (iblk m c 0 t))
        (k0_pay4 (k0_pay3 (iblk m c 1 t) (iblk m c 3 t) (iblk m c 4 t) (iblk m c 5 t) (iblk m c 6 t) (iblk m c 7 t) (iblk m c 8 t)) (iblk m c 9 t) (iblk m c 10 t) (iblk m c 11 t) (iblk m c 12 t))
        (k0_pay6 (iblk m c 2 t) (iblk m c 13 t)) (k0_pay7 (iblk m c 2 t) (iblk m c 14 t))
      = rows (512 * t.val) (rows_inb t) (scoreOf m c) := by
  have hid : ∀ p : Fin 512, (iblk m c 2 t : S512x1.Idx → BitVec 32) (ix2 p (0 : Fin 1))
      = (m ((c : Thread nD τ).loc main_arg2) : S16384.Idx → BitVec 32) (ix1 (shiftRow (512 * t.val) (rows_inb t) p)) := fun p => by
    rw [blk_ids]
    exact V_ids_of_range m c hr _
  refine (pay1_eq _ _ (iblk m c 2 t) _ _ (fun p => by rw [hid p]; exact hr _)).trans ?_
  rw [domain_at, blk_wide, blk_13, blk_14, V_Wh, V_bh, V_main_arg0]
  rw [show (fun p : Fin 512 => headOf ((iblk m c 2 t : S512x1.Idx → BitVec 32) (ix2 p (0 : Fin 1))))
      = fun p => (fun r : Fin 16384 => headOf ((m ((c : Thread nD τ).loc main_arg2) : S16384.Idx → BitVec 32) (ix1 r)))
          (shiftRow (512 * t.val) (rows_inb t) p) from funext fun p => congrArg headOf (hid p)]
  unfold scoreOf
  exact score_rows (512 * t.val) (rows_inb t) (m ((c : Thread nD τ).loc main_arg0) : S16384x256.Idx → EReal) (domainOf m c)
    (m ((c : Thread nD τ).loc main_arg13) : S8x256.Idx → EReal) (m ((c : Thread nD τ).loc main_arg14) : S8.Idx → EReal)
    (fun r : Fin 16384 => headOf ((m ((c : Thread nD τ).loc main_arg2) : S16384.Idx → BitVec 32) (ix1 r)))

/-! ## What each point writes back -/

theorem flushed16_eq (c : Dev nD) (t : Fin cfg0.N) :
    (dats m 0 c).flushed 16 t = ((cfg0.win 16).blk t).view.read (Elt Ideal) (sharedOf m c) := by
  rw [flushed16, out16_eq, shared_at]
  obtain ⟨-, -, -, -, -, -, e15a, e15b, e16a, e16b, e17a, e17b⟩ := moving_idx t
  funext j
  show sharedOf m c (ix2 (shiftRow (512 * t.val) (rows_inb t) (j 0)) (j 1)) = sharedOf m c (((cfg0.win 16).blk t).view.emb j)
  refine congrArg _ (funext fun a => Fin.ext ?_)
  match a with
  | ⟨0, _⟩ => show 512 * t.val + (j 0).val = win0_16.index t (0 : Fin 2) * 512 + 1 * (j 0).val; omega
  | ⟨1, _⟩ => show (j 1).val = win0_16.index t (1 : Fin 2) * 512 + 1 * (j 1).val; omega

theorem flushed17_eq (c : Dev nD) (t : Fin cfg0.N) :
    (dats m 0 c).flushed 17 t = ((cfg0.win 17).blk t).view.read (Elt Ideal) (domainOf m c) := by
  rw [flushed17, out17_eq, domain_at]
  obtain ⟨-, -, -, -, -, -, e15a, e15b, e16a, e16b, e17a, e17b⟩ := moving_idx t
  funext j
  show domainOf m c (ix2 (shiftRow (512 * t.val) (rows_inb t) (j 0)) (j 1)) = domainOf m c (((cfg0.win 17).blk t).view.emb j)
  refine congrArg _ (funext fun a => Fin.ext ?_)
  match a with
  | ⟨0, _⟩ => show 512 * t.val + (j 0).val = win0_17.index t (0 : Fin 2) * 512 + 1 * (j 0).val; omega
  | ⟨1, _⟩ => show (j 1).val = win0_17.index t (1 : Fin 2) * 256 + 1 * (j 1).val; omega

theorem flushed15_eq (c : Dev nD) (t : Fin cfg0.N)
    (hr : ∀ r : Fin 16384, 0 ≤ ((m ((c : Thread nD τ).loc main_arg2) : S16384.Idx → BitVec 32) (ix1 r)).toInt
      ∧ ((m ((c : Thread nD τ).loc main_arg2) : S16384.Idx → BitVec 32) (ix1 r)).toInt < 8) :
    (dats m 0 c).flushed 15 t = ((cfg0.win 15).blk t).view.read (Elt Ideal) (scoreOf m c) := by
  rw [flushed15, out15_eq, score_at m c t hr]
  obtain ⟨-, -, -, -, -, -, e15a, e15b, e16a, e16b, e17a, e17b⟩ := moving_idx t
  funext j
  show scoreOf m c (ix2 (shiftRow (512 * t.val) (rows_inb t) (j 0)) (j 1)) = scoreOf m c (((cfg0.win 15).blk t).view.emb j)
  refine congrArg _ (funext fun a => Fin.ext ?_)
  match a with
  | ⟨0, _⟩ => show 512 * t.val + (j 0).val = win0_15.index t (0 : Fin 2) * 512 + 1 * (j 0).val; omega
  | ⟨1, _⟩ => show (j 1).val = win0_15.index t (1 : Fin 2) * 1 + 1 * (j 1).val; omega

/-! ## The blocks cover the arrays -/

/-- An index of the array lies in point `t`'s block iff each coordinate lies in the block's range on its axis. -/
theorem mem_blk16 (t : Fin cfg0.N) (i : S16384x512.Idx) :
    i ∈ ((cfg0.win 16).blk t).view.set ↔ ∀ a : Fin 2, win0_16.index t a * S512x512.size a ≤ (i a).val
      ∧ (i a).val < win0_16.index t a * S512x512.size a + S512x512.size a := by
  show i ∈ ((View.whole main_v15_1).slice (win0_16.rect t)).set ↔ _
  rw [View.set_slice_whole, Rect.mem_set_unit]
  exact Iff.rfl

/-- Every row lies in the block of the point `row / 512`. -/
theorem cover16 (i : S16384x512.Idx) : ∃ t : Fin cfg0.N, (cfg0.win 16).flush t = true ∧ i ∈ ((cfg0.win 16).blk t).view.set := by
  have hi0 : (i 0).val < 16384 := (i 0).isLt
  have hi1 : (i 1).val < 512 := (i 1).isLt
  have hN : cfg0.N = 32 := N_0
  have ht : (i 0).val / 512 < cfg0.N := by omega
  obtain ⟨-, -, -, -, -, -, -, -, e0, e1, -, -⟩ := moving_idx ⟨(i 0).val / 512, ht⟩
  refine ⟨⟨(i 0).val / 512, ht⟩, flush0_16 _, (mem_blk16 _ i).mpr fun a => ?_⟩
  match a with
  | ⟨0, _⟩ =>
    show win0_16.index ⟨(i 0).val / 512, ht⟩ (0 : Fin 2) * 512 ≤ (i 0).val
      ∧ (i 0).val < win0_16.index ⟨(i 0).val / 512, ht⟩ (0 : Fin 2) * 512 + 512
    rw [e0]
    show (i 0).val / 512 * 512 ≤ (i 0).val ∧ (i 0).val < (i 0).val / 512 * 512 + 512
    omega
  | ⟨1, _⟩ =>
    show win0_16.index ⟨(i 0).val / 512, ht⟩ (1 : Fin 2) * 512 ≤ (i 1).val
      ∧ (i 1).val < win0_16.index ⟨(i 0).val / 512, ht⟩ (1 : Fin 2) * 512 + 512
    rw [e1]
    omega

/-- An index of the array lies in point `t`'s block iff each coordinate lies in the block's range on its axis. -/
theorem mem_blk17 (t : Fin cfg0.N) (i : S16384x256.Idx) :
    i ∈ ((cfg0.win 17).blk t).view.set ↔ ∀ a : Fin 2, win0_17.index t a * S512x256.size a ≤ (i a).val
      ∧ (i a).val < win0_17.index t a * S512x256.size a + S512x256.size a := by
  show i ∈ ((View.whole main_v15_2).slice (win0_17.rect t)).set ↔ _
  rw [View.set_slice_whole, Rect.mem_set_unit]
  exact Iff.rfl

/-- Every row lies in the block of the point `row / 512`. -/
theorem cover17 (i : S16384x256.Idx) : ∃ t : Fin cfg0.N, (cfg0.win 17).flush t = true ∧ i ∈ ((cfg0.win 17).blk t).view.set := by
  have hi0 : (i 0).val < 16384 := (i 0).isLt
  have hi1 : (i 1).val < 256 := (i 1).isLt
  have hN : cfg0.N = 32 := N_0
  have ht : (i 0).val / 512 < cfg0.N := by omega
  obtain ⟨-, -, -, -, -, -, -, -, -, -, e0, e1⟩ := moving_idx ⟨(i 0).val / 512, ht⟩
  refine ⟨⟨(i 0).val / 512, ht⟩, flush0_17 _, (mem_blk17 _ i).mpr fun a => ?_⟩
  match a with
  | ⟨0, _⟩ =>
    show win0_17.index ⟨(i 0).val / 512, ht⟩ (0 : Fin 2) * 512 ≤ (i 0).val
      ∧ (i 0).val < win0_17.index ⟨(i 0).val / 512, ht⟩ (0 : Fin 2) * 512 + 512
    rw [e0]
    show (i 0).val / 512 * 512 ≤ (i 0).val ∧ (i 0).val < (i 0).val / 512 * 512 + 512
    omega
  | ⟨1, _⟩ =>
    show win0_17.index ⟨(i 0).val / 512, ht⟩ (1 : Fin 2) * 256 ≤ (i 1).val
      ∧ (i 1).val < win0_17.index ⟨(i 0).val / 512, ht⟩ (1 : Fin 2) * 256 + 256
    rw [e1]
    omega

/-- An index of the array lies in point `t`'s block iff each coordinate lies in the block's range on its axis. -/
theorem mem_blk15 (t : Fin cfg0.N) (i : S16384x1.Idx) :
    i ∈ ((cfg0.win 15).blk t).view.set ↔ ∀ a : Fin 2, win0_15.index t a * S512x1.size a ≤ (i a).val
      ∧ (i a).val < win0_15.index t a * S512x1.size a + S512x1.size a := by
  show i ∈ ((View.whole main_v15_0).slice (win0_15.rect t)).set ↔ _
  rw [View.set_slice_whole, Rect.mem_set_unit]
  exact Iff.rfl

/-- Every row lies in the block of the point `row / 512`. -/
theorem cover15 (i : S16384x1.Idx) : ∃ t : Fin cfg0.N, (cfg0.win 15).flush t = true ∧ i ∈ ((cfg0.win 15).blk t).view.set := by
  have hi0 : (i 0).val < 16384 := (i 0).isLt
  have hi1 : (i 1).val < 1 := (i 1).isLt
  have hN : cfg0.N = 32 := N_0
  have ht : (i 0).val / 512 < cfg0.N := by omega
  obtain ⟨-, -, -, -, -, -, e0, e1, -, -, -, -⟩ := moving_idx ⟨(i 0).val / 512, ht⟩
  refine ⟨⟨(i 0).val / 512, ht⟩, flush0_15 _, (mem_blk15 _ i).mpr fun a => ?_⟩
  match a with
  | ⟨0, _⟩ =>
    show win0_15.index ⟨(i 0).val / 512, ht⟩ (0 : Fin 2) * 512 ≤ (i 0).val
      ∧ (i 0).val < win0_15.index ⟨(i 0).val / 512, ht⟩ (0 : Fin 2) * 512 + 512
    rw [e0]
    show (i 0).val / 512 * 512 ≤ (i 0).val ∧ (i 0).val < (i 0).val / 512 * 512 + 512
    omega
  | ⟨1, _⟩ =>
    show win0_15.index ⟨(i 0).val / 512, ht⟩ (1 : Fin 2) * 1 ≤ (i 1).val
      ∧ (i 1).val < win0_15.index ⟨(i 0).val / 512, ht⟩ (1 : Fin 2) * 1 + 1
    rw [e1]
    omega

/-! ## The arrays after the run -/

theorem final16 (c : Dev nD) : (dats m 0 c).arrAt 16 cfg0.N = sharedOf m c :=
  (dats m 0 c).arrAt_eq_of_cover 16 (sharedOf m c) (fun t _ => flushed16_eq m c t) cover16

theorem final17 (c : Dev nD) : (dats m 0 c).arrAt 17 cfg0.N = domainOf m c :=
  (dats m 0 c).arrAt_eq_of_cover 17 (domainOf m c) (fun t _ => flushed17_eq m c t) cover17

theorem final15 (c : Dev nD)
    (hr : ∀ r : Fin 16384, 0 ≤ ((m ((c : Thread nD τ).loc main_arg2) : S16384.Idx → BitVec 32) (ix1 r)).toInt
      ∧ ((m ((c : Thread nD τ).loc main_arg2) : S16384.Idx → BitVec 32) (ix1 r)).toInt < 8) :
    (dats m 0 c).arrAt 15 cfg0.N = scoreOf m c :=
  (dats m 0 c).arrAt_eq_of_cover 15 (scoreOf m c) (fun t _ => flushed15_eq m c t hr) cover15

/-- The kernel's run: the three results at their whole-array functions, the arguments unchanged. -/
theorem run (hr : ∀ (c : Dev nD) (r : Fin 16384), 0 ≤ ((m ((c : Thread nD τ).loc main_arg2) : S16384.Idx → BitVec 32) (ix1 r)).toInt
      ∧ ((m ((c : Thread nD τ).loc main_arg2) : S16384.Idx → BitVec 32) (ix1 r)).toInt < 8) :
    θ_run defs (onTc (τ := τ) (main (F := Ideal))) ⟨m, fun _ => 0, ρ⟩ fun r => ∀ c : Dev nD,
      r.2.mem ((c : Thread nD τ).loc main_v15_0) = scoreOf m c
      ∧ r.2.mem ((c : Thread nD τ).loc main_v15_1) = sharedOf m c
      ∧ r.2.mem ((c : Thread nD τ).loc main_v15_2) = domainOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨(h c).1.trans (final15 m c (hr c)), (h c).2.1.trans (final16 m c),
      (h c).2.2.1.trans (final17 m c), (h c).2.2.2⟩)
    (run_blocks m ρ)

end Cert.KernelIdeal.Arrays

end
-- ==== Proof.RefStages.lean ====
/-
  The reference's stages as the model's functions of the argument arrays.

  Each `dot_general`, bias broadcast, add and rectifier of the reference is one `dense` layer, so its second result
  is the three-layer tower of the deep features and its third two more layers on top of that.
-/
import proofs.«409852_j86955907875178_3_alg».proof.Proof.Gen.ReferenceIdeal.Read
import proofs.«409852_j86955907875178_3_alg».proof.Proof.Spec

noncomputable section

open scoped BigOperators

namespace Cert.ReferenceIdeal.Stages

open Cert.ReferenceIdeal Cert.ReferenceIdeal.Gen Cert.ReferenceIdeal.Read Cert.WideDeep
open Idealize.ShloMosaic Idealize.ShloMosaic.ValueIdx

/-- The reference's second result: the shared tower. -/
theorem ref_shared (x1 : FVec Ideal S16384x1024 .f32) (x3 : FVec Ideal S1024x2048 .f32) (x4 : FVec Ideal S2048 .f32)
    (x5 : FVec Ideal S2048x1024 .f32) (x6 : FVec Ideal S1024 .f32) (x7 : FVec Ideal S1024x512 .f32)
    (x8 : FVec Ideal S512 .f32) :
    val_main_v16 (F := Ideal) x1 x3 x4 x5 x6 x7 x8 = tower3 x1 x3 x4 x5 x6 x7 x8 :=
  (layer_of_dot (A := 16384) (K := 1024) (N := 512) _ x7 x8 _ _ _).trans
    (congrArg (fun x => dense x x7 x8)
      ((layer_of_dot (A := 16384) (K := 2048) (N := 1024) _ x5 x6 _ _ _).trans
        (congrArg (fun x => dense x x5 x6) (layer_of_dot (A := 16384) (K := 1024) (N := 2048) x1 x3 x4 _ _ _))))

/-- The reference's third result: the domain tower of the shared tower. -/
theorem ref_domain (x1 : FVec Ideal S16384x1024 .f32) (x3 : FVec Ideal S1024x2048 .f32) (x4 : FVec Ideal S2048 .f32)
    (x5 : FVec Ideal S2048x1024 .f32) (x6 : FVec Ideal S1024 .f32) (x7 : FVec Ideal S1024x512 .f32)
    (x8 : FVec Ideal S512 .f32) (x9 : FVec Ideal S512x512 .f32) (x10 : FVec Ideal S512 .f32)
    (x11 : FVec Ideal S512x256 .f32) (x12 : FVec Ideal S256 .f32) :
    val_main_v26 (F := Ideal) x1 x3 x4 x5 x6 x7 x8 x9 x10 x11 x12
      = tower2 (tower3 x1 x3 x4 x5 x6 x7 x8) x9 x10 x11 x12 :=
  (layer_of_dot (A := 16384) (K := 512) (N := 256) _ x11 x12 _ _ _).trans
    (congrArg (fun x => dense x x11 x12)
      ((layer_of_dot (A := 16384) (K := 512) (N := 512) _ x9 x10 _ _ _).trans
        (congrArg (fun x => dense x x9 x10) (ref_shared x1 x3 x4 x5 x6 x7 x8))))

end Cert.ReferenceIdeal.Stages

end
-- ==== Proof.RefScore.lean ====
/-
  The reference's first result as the routed score of the argument arrays.

  Row `r` of the result is `1 / (1 + exp (-(a + (b + c))))`, where `a` is the sum of row `r` of the wide features,
  `b` the sum over `j` of the domain tower's entry `(r, j)` times entry `(r, j)` of the gathered head rows, and `c`
  entry `r` of the gathered head biases. Both gathers are indexed by the wrapped id `id < 0 ? id + 8 : id`, read
  as a signed integer and clamped into `[0, 7]`.

  * A word whose signed reading is non-negative is not below zero, so the wrap leaves it alone; the gathers then
    clamp the id word itself, and clamping a word into `[0, 7]` is exactly what `headOf` does. So the gathered
    head row of row `r` is row `headOf id_r` of the head table and the gathered bias is entry `headOf id_r` of the
    bias table. (The upper bound `id < 8` is not used: the clamp is part of `headOf`.)
  * Each row sum starts from the word `0x00000000`, which is the number `0`, so it is the plain sum over the row.
  * The word `0x3F800000` is the number `1`, and `1 / (1 + exp (-x))` with the host's division, exponential and
    negation is the logistic function by definition.
-/
import proofs.«409852_j86955907875178_3_alg».proof.Proof.RefStages
import Idealize.ShloMosaic.Lib.StableHlo.Predicate

noncomputable section

open scoped BigOperators

namespace Cert.ReferenceIdeal.Stages

open Cert.ReferenceIdeal Cert.ReferenceIdeal.Gen Cert.ReferenceIdeal.Read Cert.WideDeep
open Idealize.ShloMosaic Idealize.ShloMosaic.ValueIdx

/-! ## The index wrap at a non-negative word -/

/-- The zero word reads as the integer zero. -/
private theorem toInt_zero32 : (0#32 : BitVec 32).toInt = 0 := by decide

/-- `w < 0 ? w + 8 : w` is `w` when `w`, read signed, is not negative. -/
private theorem wrap8_of_nonneg (w : BitVec 32) (h : 0 ≤ w.toInt) :
    Scalar.select (IntOp.cmpi .slt w 0#32) (IntOp.addi w 8#32) w = w := by
  have hs : w.slt 0#32 = false := by
    rw [BitVec.slt_eq_decide, toInt_zero32]; exact decide_eq_false (by omega)
  show (if BitVec.ofBool (w.slt 0#32) = 1 then w + 8#32 else w) = _
  rw [hs]; rfl

/-- The wrapped id of row `r` that indexes the head rows is the id word itself. -/
private theorem wrap_rows (x2 : IVec S16384 32) (r : Fin 16384) (h : 0 ≤ (x2 (ix1 r)).toInt) :
    val_main_v31 (F := Ideal) x2 (ix1 r) = x2 (ix1 r) := by
  rw [val_main_v31_apply, val_main_v28_apply, val_main_v30_apply, val_main_v27_apply, val_main_v29_apply,
    val_main_c_apply, val_main_c_0_apply]
  exact wrap8_of_nonneg _ h

/-- The wrapped id of row `r` that indexes the head biases is the id word itself. -/
private theorem wrap_bias (x2 : IVec S16384 32) (r : Fin 16384) (h : 0 ≤ (x2 (ix1 r)).toInt) :
    val_main_v41 (F := Ideal) x2 (ix1 r) = x2 (ix1 r) := by
  rw [val_main_v41_apply, val_main_v38_apply, val_main_v40_apply, val_main_v37_apply, val_main_v39_apply,
    val_main_c_2_apply, val_main_c_3_apply]
  exact wrap8_of_nonneg _ h

/-- The `[16384, 1]` column of start indices of the row gather holds the id word of row `r` at `(r, 0)`. -/
private theorem col_rows (x2 : IVec S16384 32) (r : Fin 16384) (q : Fin 1) (h : 0 ≤ (x2 (ix1 r)).toInt) :
    val_main_v32 (F := Ideal) x2 (ix2 r q) = x2 (ix1 r) := by
  rw [val_main_v32_apply]
  have hi : idx_main_v32 (ix2 r q) = ix1 r := funext fun a => match a with | ⟨0, _⟩ => rfl
  rw [hi]
  exact wrap_rows x2 r h

/-- The same for the column of start indices of the bias gather. -/
private theorem col_bias (x2 : IVec S16384 32) (r : Fin 16384) (q : Fin 1) (h : 0 ≤ (x2 (ix1 r)).toInt) :
    val_main_v42 (F := Ideal) x2 (ix2 r q) = x2 (ix1 r) := by
  rw [val_main_v42_apply]
  have hi : idx_main_v42 (ix2 r q) = ix1 r := funext fun a => match a with | ⟨0, _⟩ => rfl
  rw [hi]
  exact wrap_bias x2 r h

/-! ## The two gathers -/

/-- Entry `(r, k)` of the gathered head rows is entry `(headOf id_r, k)` of the head table: the gather reads the row
    its start index names after clamping into `[0, 7]`, and the start index is the id word. -/
private theorem head_rows (x2 : IVec S16384 32) (x13 : FVec Ideal S8x256 .f32) (r : Fin 16384) (k : Fin 256)
    (h : 0 ≤ (x2 (ix1 r)).toInt) :
    val_main_v33 (F := Ideal) x2 x13 (ix2 r k) = x13 (ix2 (headOf (x2 (ix1 r))) k) := by
  unfold val_main_v33
  refine (RowGather.gather_rows_apply (N := 8) (C := 256) (E := 16384) (by decide)
    Facts₀.gather_S8x256_S16384x1_S16384x256_1_0_n_n_0_1_1256_wf x13 (val_main_v32 (F := Ideal) x2) r k).trans ?_
  rw [col_rows x2 r 0 h]
  rfl

/-- Entry `r` of the gathered head biases is entry `headOf id_r` of the bias table. -/
private theorem head_bias (x2 : IVec S16384 32) (x14 : FVec Ideal S8 .f32) (r : Fin 16384)
    (h : 0 ≤ (x2 (ix1 r)).toInt) :
    val_main_v43 (F := Ideal) x2 x14 (ix1 r) = x14 (ix1 (headOf (x2 (ix1 r)))) := by
  unfold val_main_v43
  have ht := StableHlo.Predicate.gather_take (N := 8) (n := 16384) gather_S8_S16384x1_S16384_n_0_n_n_0_1_1
    rfl rfl rfl rfl x14 (val_main_v42 (F := Ideal) x2) r (by decide)
  have e1 : (Shape.Idx.ofFin r : S16384.Idx) = ix1 r := (Shape.Idx.eq_ofFin (ix1 r)).symm
  have e2 : StableHlo.Predicate.ixP r = ix2 r (0 : Fin 1) := eq_ix2 _
  have hw : val_main_v42 (F := Ideal) x2 (StableHlo.Predicate.ixP r) = x2 (ix1 r) := by
    rw [e2]; exact col_bias x2 r 0 h
  rw [e1] at ht
  refine ht.trans (congrArg x14 ?_)
  funext a
  match a with
  | ⟨0, _⟩ => exact Fin.ext (congrArg (fun w : BitVec 32 => min w.toInt.toNat (8 - 1)) hw)

/-! ## The two constant words -/

/-- The word `0x00000000` is the number zero. -/
private theorem zero_word : (FloatOps.ofBits .f32 0x00000000#32 : Ideal .f32) = 0 := Ideal.ofBits_zero_f32

/-- The word `0x3F800000` is the number one. -/
private theorem one_word : (FloatOps.ofBits .f32 0x3F800000#32 : Ideal .f32) = 1 :=
  IdealRules.sign_bit.ideal_onePat .f32

/-! ## The score -/

/-- The reference's first result: the routed score, for id words in `[0, 8)`. -/
theorem ref_score (x0 : FVec Ideal S16384x256 .f32) (x1 : FVec Ideal S16384x1024 .f32) (x2 : IVec S16384 32)
    (x3 : FVec Ideal S1024x2048 .f32) (x4 : FVec Ideal S2048 .f32)
    (x5 : FVec Ideal S2048x1024 .f32) (x6 : FVec Ideal S1024 .f32) (x7 : FVec Ideal S1024x512 .f32)
    (x8 : FVec Ideal S512 .f32) (x9 : FVec Ideal S512x512 .f32) (x10 : FVec Ideal S512 .f32)
    (x11 : FVec Ideal S512x256 .f32) (x12 : FVec Ideal S256 .f32) (x13 : FVec Ideal S8x256 .f32)
    (x14 : FVec Ideal S8 .f32)
    (hr : ∀ r : Fin 16384, 0 ≤ (x2 (ix1 r)).toInt ∧ (x2 (ix1 r)).toInt < 8) :
    val_main_v52 (F := Ideal) x0 x1 x2 x3 x4 x5 x6 x7 x8 x9 x10 x11 x12 x13 x14
      = score x0 (tower2 (tower3 x1 x3 x4 x5 x6 x7 x8) x9 x10 x11 x12) x13 x14 (fun r => headOf (x2 (ix1 r))) := by
  funext i
  obtain ⟨r, q, rfl⟩ : ∃ (r : Fin 16384) (q : Fin 1), i = ix2 r q := ⟨i 0, i 1, eq_ix2 i⟩
  have h0 : 0 ≤ (x2 (ix1 r)).toInt := (hr r).1
  -- the row sum of the wide features
  have hwide : val_main_v1 (F := Ideal) x0 (ix2 r q) = ∑ k : Fin 256, x0 (ix2 r k) := by
    rw [val_main_v1_apply, val_main_v0_apply, val_main_cst_apply, zero_word, zero_add]
    refine Finset.sum_congr rfl fun k _ => congrArg x0 ?_
    funext a; match a with | ⟨0, _⟩ => rfl | ⟨1, _⟩ => rfl
  -- the inner product of the domain tower's row with the routed head row
  have hdot : val_main_v36 (F := Ideal) x1 x2 x3 x4 x5 x6 x7 x8 x9 x10 x11 x12 x13 (ix2 r q)
      = ∑ j : Fin 256, tower2 (tower3 x1 x3 x4 x5 x6 x7 x8) x9 x10 x11 x12 (ix2 r j)
          * x13 (ix2 (headOf (x2 (ix1 r))) j) := by
    rw [val_main_v36_apply, val_main_v35_apply, val_main_cst_1_apply, zero_word, zero_add]
    refine Finset.sum_congr rfl fun j _ => ?_
    have hi : idx_main_v35 (idx_main_v36 (ix2 r q)) j = ix2 r j := by
      funext a; match a with | ⟨0, _⟩ => rfl | ⟨1, _⟩ => rfl
    rw [hi, val_main_v34_apply, head_rows x2 x13 r j h0, ref_domain]
    rfl
  -- the routed head bias
  have hb : val_main_v44 (F := Ideal) x2 x14 (ix2 r q) = x14 (ix1 (headOf (x2 (ix1 r)))) := by
    rw [val_main_v44_apply]
    have hi : idx_main_v44 (ix2 r q) = ix1 r := funext fun a => match a with | ⟨0, _⟩ => rfl
    rw [hi]
    exact head_bias x2 x14 r h0
  rw [score_apply, val_main_v52_apply, val_main_v51_apply, val_main_cst_5_apply, val_main_v50_apply,
    val_main_v49_apply, val_main_cst_4_apply, val_main_v48_apply, val_main_v47_apply, val_main_v46_apply,
    val_main_v45_apply, hwide, hdot, hb, one_word]
  rfl

end Cert.ReferenceIdeal.Stages

end
-- ==== Proof.PreRange.lean ====
/-
  What the precondition says of the domain ids: every id word, read as a signed integer, lies in `[0, 8)`.

  The precondition is one long conjunction of whole-array tests, each an `and`-reduction of an elementwise comparison down
  to a single bit, the bits then joined by `and`. All but the last two conjuncts test floats for finiteness and play no
  part here: they are kept as two unnamed bits `X` and `Y`. The last two conjuncts are "every id is at least 0" and "every
  id is below 8", both signed comparisons of the id array against a broadcast constant. So:

  * the whole conjunction being 1 makes each of its last two conjuncts 1 (`and` of bits is 1 only when both are);
  * an `and`-reduction over the whole array that comes out 1 had a 1 at every position, in particular at position `r`;
  * at position `r` the compared constant is the broadcast scalar itself, `0` or `8`, and a signed comparison bit that is 1
    is the corresponding order relation between the signed readings: `0 ≤ id r` and `id r < 8`.
-/
import proofs.«409852_j86955907875178_3_alg».proof.Pre_finite_inputs
import proofs.«409852_j86955907875178_3_alg».proof.Proof.Gen.Pre_finite_inputs
import Idealize.ShloMosaic.Lib.ReduceAll
import Idealize.ShloMosaic.Lib.ValueIdx
import Idealize.ShloMosaic.Lib.StableHlo.Predicate

noncomputable section

namespace Cert.Pre_finite_inputs.Range

open Cert.Pre_finite_inputs Idealize.ShloMosaic Idealize.ShloMosaic.ValueIdx

/-- The scalar shape has exactly one index (the empty tuple of coordinates). -/
instance : Subsingleton S_.Idx := ⟨fun a b => funext fun d => d.elim0⟩

/-- The bit "every id is at least 0": the signed test `id ≥ 0` at each position, reduced by `and` over the array. -/
def allGe [Facts] (ids : IVec S16384 32) : IVec S_ 1 :=
  Host.reduce IntOp.andi (cmpi .sge ids (broadcastInDim S16384 ![] Facts.bcast_S_S16384 (constantI S_ 32 0#32)))
    (constantI S_ 1 1#1) Facts.reducesTo_S16384_S_d0 Facts.h_S_

/-- The bit "every id is below 8": the signed test `id < 8` at each position, reduced by `and` over the array. -/
def allLt [Facts] (ids : IVec S16384 32) : IVec S_ 1 :=
  Host.reduce IntOp.andi (cmpi .slt ids (broadcastInDim S16384 ![] Facts.bcast_S_S16384 (constantI S_ 32 8#32)))
    (constantI S_ 1 1#1) Facts.reducesTo_S16384_S_d0 Facts.h_S_

/-- The tail of the conjunction: whatever the two earlier bits are, the last part joins them with the two id tests. -/
theorem part4_apply {F : FTy → Type} [FloatOps F] [Facts] (ids : IVec S16384 32) (X Y : IVec S_ 1) (j : S_.Idx) :
    fn_part4 (F := F) ids X Y j
      = IntOp.andi (IntOp.andi (IntOp.andi (X j) (Y j)) (allGe ids j)) (allLt ids j) := rfl

/-- The whole precondition is its last part, applied to the ids and to two bits computed from the float arguments alone. -/
theorem fn_eq_part4 {F : FTy → Type} [FloatOps F] [Facts]
    (a0 : FVec F S16384x256 .f32) (a1 : FVec F S16384x1024 .f32) (a2 : IVec S16384 32)
    (a3 : FVec F S1024x2048 .f32) (a4 : FVec F S2048 .f32) (a5 : FVec F S2048x1024 .f32) (a6 : FVec F S1024 .f32)
    (a7 : FVec F S1024x512 .f32) (a8 : FVec F S512 .f32) (a9 : FVec F S512x512 .f32) (a10 : FVec F S512 .f32)
    (a11 : FVec F S512x256 .f32) (a12 : FVec F S256 .f32) (a13 : FVec F S8x256 .f32) (a14 : FVec F S8 .f32) :
    ∃ X Y : IVec S_ 1, fn (F := F) a0 a1 a2 a3 a4 a5 a6 a7 a8 a9 a10 a11 a12 a13 a14 = fn_part4 (F := F) a2 X Y := by
  unfold fn fn_part1 fn_part2 fn_part3
  exact ⟨_, _, rfl⟩

/-- A reduction by `and` over all the ids that is 1 has a 1 at each id: read at position `r`, "at least 0". -/
theorem ge_of_allGe [Facts] (ids : IVec S16384 32) (e : allGe ids ix0 = 1#1) (r : Fin 16384) : 0 ≤ (ids (ix1 r)).toInt := by
  have hr : IntOp.cmpi .sge (ids (ix1 r)) (0#32 : BitVec 32) = 1#1 :=
    Host.reduce_andi_all _ _ Facts.reducesTo_S16384_S_d0 Facts.h_S_ ix0 e (ix1 r)
  have := IntOp.cmpi_sge.1 hr
  rwa [show (0#32 : BitVec 32).toInt = 0 from by decide] at this

/-- Likewise "below 8" at position `r`. -/
theorem lt_of_allLt [Facts] (ids : IVec S16384 32) (e : allLt ids ix0 = 1#1) (r : Fin 16384) : (ids (ix1 r)).toInt < 8 := by
  have hr : IntOp.cmpi .slt (ids (ix1 r)) (8#32 : BitVec 32) = 1#1 :=
    Host.reduce_andi_all _ _ Facts.reducesTo_S16384_S_d0 Facts.h_S_ ix0 e (ix1 r)
  have := IntOp.cmpi_slt.1 hr
  rwa [show (8#32 : BitVec 32).toInt = 8 from by decide] at this

/-- Under the precondition every domain id word lies in `[0, 8)`. -/
theorem ids_in_range {F : FTy → Type} [FloatOps F] [hP : Cert.Pre_finite_inputs.Facts]
    (a0 : FVec F S16384x256 .f32) (a1 : FVec F S16384x1024 .f32) (a2 : IVec S16384 32)
    (a3 : FVec F S1024x2048 .f32) (a4 : FVec F S2048 .f32) (a5 : FVec F S2048x1024 .f32) (a6 : FVec F S1024 .f32)
    (a7 : FVec F S1024x512 .f32) (a8 : FVec F S512 .f32) (a9 : FVec F S512x512 .f32) (a10 : FVec F S512 .f32)
    (a11 : FVec F S512x256 .f32) (a12 : FVec F S256 .f32) (a13 : FVec F S8x256 .f32) (a14 : FVec F S8 .f32)
    (h : Cert.Pre_finite_inputs.fn (F := F) a0 a1 a2 a3 a4 a5 a6 a7 a8 a9 a10 a11 a12 a13 a14 = fun _ => 1#1)
    (r : Fin 16384) : 0 ≤ (a2 (ix1 r)).toInt ∧ (a2 (ix1 r)).toInt < 8 := by
  obtain ⟨X, Y, e⟩ := fn_eq_part4 a0 a1 a2 a3 a4 a5 a6 a7 a8 a9 a10 a11 a12 a13 a14
  -- the conjunction at its one index, as the join of the two float bits and the two id bits
  have h1 : IntOp.andi (IntOp.andi (IntOp.andi (X ix0) (Y ix0)) (allGe a2 ix0)) (allLt a2 ix0) = 1#1 :=
    (part4_apply (F := F) a2 X Y ix0).symm.trans ((congrFun e ix0).symm.trans (congrFun h ix0))
  obtain ⟨h2, hlt⟩ := IntOp.andi_eq_one.1 h1
  obtain ⟨-, hge⟩ := IntOp.andi_eq_one.1 h2
  exact ⟨ge_of_allGe a2 hge r, lt_of_allLt a2 hlt r⟩

end Cert.Pre_finite_inputs.Range

end
-- ==== Proof.lean ====
/-
  The certificate of the wide-and-deep scoring kernel against its reference, over the extended reals.

  The model: three dense layers with rectifiers on the deep features (the shared output), two more on top (the domain
  output), and per row the logistic function of the wide features' row sum plus the inner product of the domain row
  with the head row the row's domain id selects plus that head's bias (the score).

  The kernel computes this in 32 blocks of 512 rows; narrowing a value to the matrix unit's input format is the
  identity here, each block's layers are the whole-array layers restricted to the block's rows, and the routing by a
  one-hot product picks the head row and bias the id names. The reference computes it on whole arrays, routing by a
  gather. The two routings agree where every domain id lies in `[0, 8)`, which the precondition states (outside that
  range the reference wraps a negative id to a head counted from the end while the kernel clips it to head 0). With
  that, both programs end at the same three functions of the argument arrays, entry by entry. No finiteness of the
  float inputs is used: the two programs add and multiply the same terms in the same order, and the routing only needs
  `0 * x = 0` and `1 * x = x`, which hold of infinite values too.

  The three frames are the generated ones (the reference's is its generated run with the results dropped), and the
  kernel's idealization rewrote nothing.
-/
import proofs.«409852_j86955907875178_3_alg».proof.Defs
import proofs.«409852_j86955907875178_3_alg».proof.Proof.Gen.Kernel
import proofs.«409852_j86955907875178_3_alg».proof.Proof.Gen.Kernel.Frame
import proofs.«409852_j86955907875178_3_alg».proof.Proof.Gen.KernelIdeal
import proofs.«409852_j86955907875178_3_alg».proof.Proof.Gen.KernelIdeal.Frame
import proofs.«409852_j86955907875178_3_alg».proof.Proof.Gen.KernelIdeal.Value
import proofs.«409852_j86955907875178_3_alg».proof.Proof.Gen.ReferenceIdeal
import proofs.«409852_j86955907875178_3_alg».proof.Proof.Gen.ReferenceIdeal.Run
import proofs.«409852_j86955907875178_3_alg».proof.Proof.Gen.ReferenceIdeal.Read
import proofs.«409852_j86955907875178_3_alg».proof.Proof.Gen.Pre_finite_inputs
import proofs.«409852_j86955907875178_3_alg».proof.Proof.KernelArrays
import proofs.«409852_j86955907875178_3_alg».proof.Proof.RefScore
import proofs.«409852_j86955907875178_3_alg».proof.Proof.PreRange
import Idealize.ShloMosaic.Adequacy
import Idealize.ShloMosaic.Init

noncomputable section

namespace Cert.Proof

open Idealize.ShloMosaic Idealize.SL.Sem Idealize.ShloMosaic.ValueIdx Cert.WideDeep

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's run, its three results dropped. -/
theorem frame_referenceIdeal : Cert.frame_ReferenceIdeal := fun m ρ _ =>
  (θ_run Cert.ReferenceIdeal.defs _ _).mono (fun _ h c => (h c).2.2.2)
    (Cert.ReferenceIdeal.Value.run (F := Ideal) m ρ)

/-- The idealization rewrote no operation. -/
theorem preserves : Cert.preserves_Kernel_KernelIdeal := trivial

/-- Both programs end with the score, the shared tower and the domain tower of the argument arrays. -/
theorem algebraic : Cert.algebraic_KernelIdeal_ReferenceIdeal := by
  intro m ρ m' ρ' hpre hagree
  have hr : ∀ (c : Dev Cert.KernelIdeal.nD) (r : Fin 16384),
      0 ≤ ((m ((c.tc : Thread Cert.KernelIdeal.nD Cert.KernelIdeal.τ).loc Cert.KernelIdeal.main_arg2)
          : Cert.KernelIdeal.S16384.Idx → BitVec 32) (ix1 r)).toInt
      ∧ ((m ((c.tc : Thread Cert.KernelIdeal.nD Cert.KernelIdeal.τ).loc Cert.KernelIdeal.main_arg2)
          : Cert.KernelIdeal.S16384.Idx → BitVec 32) (ix1 r)).toInt < 8 :=
    fun c r => Cert.Pre_finite_inputs.Range.ids_in_range _ _ _ _ _ _ _ _ _ _ _ _ _ _ _ (hpre c) r
  refine ⟨fun c => Cert.KernelIdeal.Arrays.scoreOf m c, fun c => Cert.KernelIdeal.Arrays.sharedOf m c,
    fun c => Cert.KernelIdeal.Arrays.domainOf m c, Cert.KernelIdeal.Arrays.run m ρ hr, ?_⟩
  refine (θ_run Cert.ReferenceIdeal.defs _ _).mono (fun r h c => ?_)
    (Cert.ReferenceIdeal.Value.run (F := Ideal) m' ρ')
  obtain ⟨a0, a1, a2, a3, a4, a5, a6, a7, a8, a9, a10, a11, a12, a13, a14⟩ := hagree c
  obtain ⟨hscore, hshared, hdomain, hargs⟩ := h c
  refine ⟨hscore.trans ?_, hshared.trans ?_, hdomain.trans ?_, hargs⟩
  · refine (Cert.ReferenceIdeal.Read.val_main_v52_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14))).trans ?_
    rw [a0, a1, a2, a3, a4, a5, a6, a7, a8, a9, a10, a11, a12, a13, a14]
    exact Cert.ReferenceIdeal.Stages.ref_score _ _ _ _ _ _ _ _ _ _ _ _ _ _ _ (hr c)
  · refine (Cert.ReferenceIdeal.Read.val_main_v16_eq (F := Ideal) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8))).trans ?_
    rw [a1, a3, a4, a5, a6, a7, a8]
    exact Cert.ReferenceIdeal.Stages.ref_shared _ _ _ _ _ _ _
  · refine (Cert.ReferenceIdeal.Read.val_main_v26_eq (F := Ideal) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12))).trans ?_
    rw [a1, a3, a4, a5, a6, a7, a8, a9, a10, a11, a12]
    exact Cert.ReferenceIdeal.Stages.ref_domain _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
